-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S256x64 : Shape := ⟨2, ![256, 64]⟩
abbrev S100000 : Shape := ⟨1, ![100000]⟩
abbrev S96x128 : Shape := ⟨2, ![96, 128]⟩
abbrev S128 : Shape := ⟨1, ![128]⟩
abbrev S192x64 : Shape := ⟨2, ![192, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S256x64 : S_.BroadcastsInDim S256x64 (![] : Fin 0 → Fin S256x64.rank)
  reducesTo_S256x64_S_d0_1 : S256x64.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg6 : FVec F S128 .f32) (main_arg7 : FVec F S192x64 .f32) (main_arg8 : FVec F S64 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S192x64 .f32 := Host.absf main_arg7
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S100000x64 .f32) (main_arg1 : IVec S2x1600000 32) (main_arg2 : FVec F S1600000x32 .f32) (main_arg3 : FVec F S256x64 .f32) (main_arg4 : IVec S100000 32) (main_arg5 : FVec F S96x128 .f32) (main_arg6 : FVec F S128 .f32) (main_arg7 : FVec F S192x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S96x128 .f32 := Host.absf main_arg5
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg1 main_arg6 main_arg7 main_arg8 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S256x64 : Shape := ⟨2, ![256, 64]⟩
abbrev S100000 : Shape := ⟨1, ![100000]⟩
abbrev S96x128 : Shape := ⟨2, ![96, 128]⟩
abbrev S128 : Shape := ⟨1, ![128]⟩
abbrev S192x64 : Shape := ⟨2, ![192, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S64x128 : Shape := ⟨2, ![64, 128]⟩
abbrev S32x128 : Shape := ⟨2, ![32, 128]⟩
abbrev S64x64 : Shape := ⟨2, ![64, 64]⟩
abbrev S128x64 : Shape := ⟨2, ![128, 64]⟩
abbrev S8000x64 : Shape := ⟨2, ![8000, 64]⟩
abbrev S8000x32 : Shape := ⟨2, ![8000, 32]⟩
abbrev S8000x128 : Shape := ⟨2, ![8000, 128]⟩
abbrev S1x128 : Shape := ⟨2, ![1, 128]⟩
abbrev S5000x64 : Shape := ⟨2, ![5000, 64]⟩
abbrev S1x64 : Shape := ⟨2, ![1, 64]⟩

abbrev nBuf : Space → Nat
  | .hbm => 47
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S256x64, .f32⟩
  | .hbm, ⟨4, _⟩ => ⟨S100000, .i32⟩
  | .hbm, ⟨5, _⟩ => ⟨S96x128, .f32⟩
  | .hbm, ⟨6, _⟩ => ⟨S128, .f32⟩
  | .hbm, ⟨7, _⟩ => ⟨S192x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1, .i32⟩
  | .hbm, ⟨22, _⟩ => ⟨S_, .i32⟩
  | .hbm, ⟨23, _⟩ => ⟨S1600000x1, .i32⟩
  | .hbm, ⟨24, _⟩ => ⟨S1600000x1, .i1⟩
  | .hbm, ⟨25, _⟩ => ⟨S1x1, .i32⟩
  | .hbm, ⟨26, _⟩ => ⟨S1600000x1, .i32⟩
  | .hbm, ⟨27, _⟩ => ⟨S1600000x1, .i1⟩
  | .hbm, ⟨28, _⟩ => ⟨S1600000x1, .i1⟩
  | .hbm, ⟨29, _⟩ => ⟨S_, .i1⟩
  | .hbm, ⟨30, _⟩ => ⟨S1600000, .i1⟩
  | .hbm, ⟨31, _⟩ => ⟨S1600000x64, .f32⟩
  | .hbm, ⟨32, _⟩ => ⟨S1600000x64, .i1⟩
  | .hbm, ⟨33, _⟩ => ⟨S_, .f32⟩
  | .hbm, ⟨34, _⟩ => ⟨S1600000x64, .f32⟩
  | .hbm, ⟨35, _⟩ => ⟨S1600000x64, .f32⟩
  | .hbm, ⟨36, _⟩ => ⟨S1600000x64, .bf16⟩
  | .hbm, ⟨37, _⟩ => ⟨S64x128, .f32⟩
  | .hbm, ⟨38, _⟩ => ⟨S32x128, .f32⟩
  | .hbm, ⟨39, _⟩ => ⟨S64x64, .f32⟩
  | .hbm, ⟨40, _⟩ => ⟨S128x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x64, .f32⟩
  | .local _ .vmem, ⟨0, _⟩ => ⟨S8000x64, .bf16⟩
  | .local _ .vmem, ⟨1, _⟩ => ⟨S8000x64, .bf16⟩
  | .local _ .vmem, ⟨2, _⟩ => ⟨S8000x32, .f32⟩
  | .local _ .vmem, ⟨3, _⟩ => ⟨S8000x32, .f32⟩
  | .local _ .vmem, ⟨4, _⟩ => ⟨S64x128, .f32⟩
  | .local _ .vmem, ⟨5, _⟩ => ⟨S32x128, .f32⟩
  | .local _ .vmem, ⟨6, _⟩ => ⟨S128, .f32⟩
  | .local _ .vmem, ⟨7, _⟩ => ⟨S128x64, .f32⟩
  | .local _ .vmem, ⟨8, _⟩ => ⟨S8000x64, .f32⟩
  | .local _ .vmem, ⟨9, _⟩ => ⟨S8000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bitsLt_bf16_f32 : FTy.bits .bf16 < FTy.bits .f32
  slices_S96x128_S64x128_0_0 : S96x128.Slices ![0, 0] S64x128
  slices_S96x128_S32x128_64_0 : S96x128.Slices ![64, 0] S32x128
  slices_S192x64_S64x64_0_0 : S192x64.Slices ![0, 0] S64x64
  slices_S192x64_S128x64_64_0 : S192x64.Slices ![64, 0] S128x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x32_S8000x32_0_0 : ∀ a, (![0, 0] : Fin 2 → Nat) a + S8000x32.size a ≤ S8000x32.size a
  h_S8000x32 : 0 < S8000x32.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  dot_S8000x64_S64x128_S8000x128_1_0_0_1_n_n_wf : DotDims.WF S8000x64 S64x128 S8000x128 [1] [0] [0] [1] [] []
  dot_S8000x32_S32x128_S8000x128_1_0_0_1_n_n_wf : DotDims.WF S8000x32 S32x128 S8000x128 [1] [0] [0] [1] [] []
  dot_S8000x128_S128x64_S8000x64_1_0_0_1_n_n_wf : DotDims.WF S8000x128 S128x64 S8000x64 [1] [0] [0] [1] [] []
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .bf16 = 32 ∨ (Rect.block (s := S1600000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1600000x32.size a
  hwx0_1 : ∀ i : grid0.Coords, EltTy.bits .f32 = 32 ∨ (Rect.block (s := S1600000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S1600000x64.size a
  hwx0_6 : ∀ i : grid0.Coords, EltTy.bits .f32 = 32 ∨ (Rect.block (s := S1600000x64) S8000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v5) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S256x64 : Shape := ⟨2, ![256, 64]⟩
abbrev S100000 : Shape := ⟨1, ![100000]⟩
abbrev S96x128 : Shape := ⟨2, ![96, 128]⟩
abbrev S128 : Shape := ⟨1, ![128]⟩
abbrev S192x64 : Shape := ⟨2, ![192, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x96 : Shape := ⟨2, ![1600000, 96]⟩
abbrev S1600000x128 : Shape := ⟨2, ![1600000, 128]⟩
abbrev S1x128 : Shape := ⟨2, ![1, 128]⟩
abbrev S100000x128 : Shape := ⟨2, ![100000, 128]⟩
abbrev S100000x192 : Shape := ⟨2, ![100000, 192]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S256x64, .f32⟩
  | .hbm, ⟨4, _⟩ => ⟨S100000, .i32⟩
  | .hbm, ⟨5, _⟩ => ⟨S96x128, .f32⟩
  | .hbm, ⟨6, _⟩ => ⟨S128, .f32⟩
  | .hbm, ⟨7, _⟩ => ⟨S192x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x96, .f32⟩
  | .hbm, ⟨23, _⟩ => ⟨S1600000x128, .f32⟩
  | .hbm, ⟨24, _⟩ => ⟨S1x128, .f32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x192, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x32_S1600000x96_d1 : Shape.Concatenates [S1600000x64, S1600000x32] S1600000x96 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S100000x128 : S_.BroadcastsInDim S100000x128 (![] : Fin 0 → Fin S100000x128.rank)
  concatenates_S100000x64_S100000x128_S100000x192_d1 : Shape.Concatenates [S100000x64, S100000x128] S100000x192 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x96_S96x128_S1600000x128_1_0_0_1_n_n_wf : DotDims.WF S1600000x96 S96x128 S1600000x128 [1] [0] [0] [1] [] []
  scatter_S100000x128_S1600000x1_S1600000x128_1_0_0_1_wf : ScatterDims.WF S100000x128 S1600000x1 S1600000x128 [1] [0] [0] 1
  dot_S100000x192_S192x64_S100000x64_1_0_0_1_n_n_wf : DotDims.WF S100000x192 S192x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x96_S96x128_S1600000x128_1_0_0_1_n_n : DotDims S1600000x96 S96x128 S1600000x128 where
  lhsContracting := [1]
  rhsContracting := [0]
  lhsNonContracting := [0]
  rhsNonContracting := [1]
  lhsBatch := []
  rhsBatch := []
  wf := dot_S1600000x96_S96x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«428547_j10393820857011_3_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.LibLayout2.lean ====
/-
  Small layout facts read at an entry: a column [M, 1] and a row [1, N] broadcast in dimensions [0, 1] to [M, N],
  a vector [N] broadcast in dimension [1] to one row [1, N], and a vector [M] recast as a column [M, 1].
-/
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

/-- A column broadcast over the columns reads, at (r, q), the column's entry of row r. -/
theorem bcast_col_apply {M N : Nat} (y : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h y (ix2 r q) = y (ix2 r (0 : Fin 1)) :=
  broadcastInDim_apply ![0, 1] h y (ix2 r q) (ix2 r (0 : Fin 1)) fun ax => by
    match ax with
    | ⟨0, _⟩ =>
      show r.val = if M = 1 then 0 else r.val
      split
      · have := r.isLt; omega
      · rfl
    | ⟨1, _⟩ => rfl

/-- A row broadcast over the rows reads, at (r, q), the row's entry of column q. -/
theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

/-- A vector broadcast to one row reads, at (u, q), the vector's entry q. -/
theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

/-- A vector recast as a column reads, at (r, u), the vector's entry r. -/
theorem shapeCast_a_a1_apply {M : Nat} (x : (⟨1, ![M]⟩ : Shape).Idx → α) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

end Cert.LibLayout2

end
-- ==== Proof.LibRowScatter.lean ====
/-
  A row scatter with addition, read at one entry on the extended reals.

  The operand is an N x C array, the updates an E x C array, the scatter indices an E x 1 array of words: update row e
  is added into operand row idx (e, 0), column by column, and a row whose index, read as a signed integer, is not in
  [0, N) is dropped.  So entry (n, j) of the result is the operand's entry plus the sum, over the edges e whose index
  is n, of update (e, j): the result index of update (e, j') is (idx (e, 0), j'), which is (n, j) exactly when
  j' = j and idx (e, 0) = n.

  A record of dimension numbers printed with a program is this one whenever its four lists are [1], [0], [0] and 1
  (the fifth field is a proof), by reflexivity; the lemma is stated for ScatterDims.rowAdd so that it serves every such
  record, whatever N, E and C.
-/
import Idealize.ShloMosaic.PureOps.Ideal
import Idealize.ShloMosaic.Lib.ValueIdx

noncomputable section

open scoped BigOperators

namespace Cert.LibRowScatter

open Idealize.ShloMosaic Idealize.ShloMosaic.ValueIdx

/-- The dimension numbers of a row scatter: the updates' second axis is the window axis, the operand's first axis
    is the scattered one, and the index vector sits on the indices' second axis. -/
abbrev rowAdd (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The start and the window coordinate of an update index, axis by axis

The scattered axis 0 is the only one the map names, so the start on it is the index word of the update's row, read
signed, and the start on axis 1 is 0; axis 0 is inserted, so its window coordinate is 0, and axis 1 carries the update's
column. -/

section Coords
variable {N E C w : Nat} (wf : ScatterDims.WF ⟨2, ![N, C]⟩ ⟨2, ![E, 1]⟩ ⟨2, ![E, C]⟩ [1] [0] [0] 1)

/-- On the scattered axis the start is the index word of the update's row, read signed. -/
theorem rowAdd_start0 (idx : IVec ⟨2, ![E, 1]⟩ w) (jj : (⟨2, ![E, C]⟩ : Shape).Idx) :
    (rowAdd N E C wf).start jj idx 0
      = (idx (ix2 (⟨(jj 0).val, idx2_lt0 jj⟩ : Fin E) (0 : Fin 1))).toInt := by
  unfold ScatterDims.start
  rw [dif_pos (show (0 : Fin 2) ∈ (rowAdd N E C wf).scatterDimsToOperandDims from List.mem_singleton.mpr rfl)]
  have hsi : (rowAdd N E C wf).siIdx jj ⟨List.idxOf (0 : Fin 2) (rowAdd N E C wf).scatterDimsToOperandDims,
      List.idxOf_lt_length_iff.2 (List.mem_singleton.mpr rfl)⟩
        = ix2 (⟨(jj 0).val, idx2_lt0 jj⟩ : Fin E) (0 : Fin 1) := by
    funext b; refine Fin.ext ?_
    match b with
    | ⟨0, _⟩ => rfl
    | ⟨1, _⟩ => rfl
  rw [hsi]

/-- On the column axis, which the map does not name, the start is 0. -/
theorem rowAdd_start1 (idx : IVec ⟨2, ![E, 1]⟩ w) (jj : (⟨2, ![E, C]⟩ : Shape).Idx) :
    (rowAdd N E C wf).start jj idx 1 = 0 := by
  unfold ScatterDims.start
  rw [dif_neg (show ¬ (1 : Fin 2) ∈ (rowAdd N E C wf).scatterDimsToOperandDims from
    (by decide : ¬ (1 : Fin 2) ∈ ([0] : List (Fin 2))))]

/-- The scattered axis is inserted: its window coordinate is 0. -/
theorem rowAdd_window0 (jj : (⟨2, ![E, C]⟩ : Shape).Idx) :
    (rowAdd N E C wf).window jj 0 = 0 := by
  unfold ScatterDims.window
  rw [dif_neg (show ¬ (0 : Fin 2) ∈ (rowAdd N E C wf).sKept from
    (by decide : ¬ (0 : Fin 2) ∈ ([1] : List (Fin 2))))]

/-- The column axis is the one kept axis: its window coordinate is the update's column. -/
theorem rowAdd_window1 (jj : (⟨2, ![E, C]⟩ : Shape).Idx) :
    (rowAdd N E C wf).window jj 1 = (jj 1).val := by
  unfold ScatterDims.window
  rw [dif_pos (show (1 : Fin 2) ∈ (rowAdd N E C wf).sKept from
    (by decide : (1 : Fin 2) ∈ ([1] : List (Fin 2))))]
  rfl

end Coords

/-! ## Where an update lands

Update (e, j') lands at (idx (e, 0), j'), when that row is in [0, N): so it lands at (n, j) exactly when the index word
of row e, read signed, is n and j' = j. From left to right the two coordinates of the landing index are compared, the
range condition making the conversion to a natural number exact; from right to left the range condition holds because
n < N and j < C. -/

section Landing
variable {N E C w : Nat} (wf : ScatterDims.WF ⟨2, ![N, C]⟩ ⟨2, ![E, 1]⟩ ⟨2, ![E, C]⟩ [1] [0] [0] 1)

/-- An update index lands at (n, j) exactly when its row's index word, read signed, is n and its column is j. -/
theorem rowAdd_resultIdx_iff (idx : IVec ⟨2, ![E, 1]⟩ w) (jj : (⟨2, ![E, C]⟩ : Shape).Idx) (n : Fin N) (j : Fin C) :
    (rowAdd N E C wf).resultIdx? jj idx = some (ix2 n j)
      ↔ (idx (ix2 (⟨(jj 0).val, idx2_lt0 jj⟩ : Fin E) (0 : Fin 1))).toInt = (n.val : Int) ∧ (jj 1).val = j.val := by
  unfold ScatterDims.resultIdx?
  constructor
  · intro h
    by_cases hc : ∀ a, 0 ≤ (rowAdd N E C wf).start jj idx a + (rowAdd N E C wf).window jj a ∧
        (rowAdd N E C wf).start jj idx a + (rowAdd N E C wf).window jj a < (⟨2, ![N, C]⟩ : Shape).size a
    · rw [dif_pos hc] at h
      have h' := Option.some.inj h
      have h0 : ((rowAdd N E C wf).start jj idx 0 + (rowAdd N E C wf).window jj 0).toNat = n.val :=
        congrArg (fun f => (f 0).val) h'
      have h1 : ((rowAdd N E C wf).start jj idx 1 + (rowAdd N E C wf).window jj 1).toNat = j.val :=
        congrArg (fun f => (f 1).val) h'
      have c0 := (hc 0).1
      have c1 := (hc 1).1
      rw [rowAdd_start0, rowAdd_window0] at h0 c0
      rw [rowAdd_start1, rowAdd_window1] at h1 c1
      constructor <;> omega
    · rw [dif_neg hc] at h
      exact absurd h (by simp)
  · rintro ⟨hA, hB⟩
    have hn : (n.val : Int) < (N : Int) := by have := n.isLt; omega
    have hj : (j.val : Int) < (C : Int) := by have := j.isLt; omega
    have hc : ∀ a, 0 ≤ (rowAdd N E C wf).start jj idx a + (rowAdd N E C wf).window jj a ∧
        (rowAdd N E C wf).start jj idx a + (rowAdd N E C wf).window jj a < (⟨2, ![N, C]⟩ : Shape).size a := by
      refine Fin.forall_fin_two.mpr ⟨?_, ?_⟩
      · rw [rowAdd_start0, rowAdd_window0, hA]
        exact ⟨by omega, by show _ < ((N : Nat) : Int); omega⟩
      · rw [rowAdd_start1, rowAdd_window1, hB]
        exact ⟨by omega, by show _ < ((C : Nat) : Int); omega⟩
    rw [dif_pos hc]
    congr 1
    funext a
    refine Fin.ext ?_
    match a with
    | ⟨0, _⟩ =>
      show ((rowAdd N E C wf).start jj idx 0 + (rowAdd N E C wf).window jj 0).toNat = n.val
      rw [rowAdd_start0, rowAdd_window0, hA]; omega
    | ⟨1, _⟩ =>
      show ((rowAdd N E C wf).start jj idx 1 + (rowAdd N E C wf).window jj 1).toNat = j.val
      rw [rowAdd_start1, rowAdd_window1, hB]; omega

end Landing

/-- THE ROW SCATTER READ AT (n, j): the operand's entry plus the updates' entries (e, j) over the edges e whose index
    word, read signed, is n. -/
theorem scatterAdd_row_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (j : Fin C) :
    Ideal.hostScatterAdd (rowAdd N E C wf) x idx upd (ix2 n j)
      = x (ix2 n j) + ∑ e ∈ Finset.univ.filter (fun e : Fin E => (idx (ix2 e (0 : Fin 1))).toInt = (n.val : Int)),
          upd (ix2 e j) := by
  -- The operand's entry is common to both sides; what is left is the sum over the updates that land at (n, j).
  unfold Ideal.hostScatterAdd
  congr 1
  -- Both filtered sums become sums of an `if`, the left one split into the double sum over rows e and columns j'.
  rw [Finset.sum_filter, sum_idx2, Finset.sum_filter]
  refine Finset.sum_congr rfl fun e _ => ?_
  by_cases hA : (idx (ix2 e (0 : Fin 1))).toInt = (n.val : Int)
  · -- Row e scatters to row n: of its columns only j' = j lands at (n, j).
    rw [if_pos hA, Finset.sum_eq_single j]
    · rw [if_pos ((rowAdd_resultIdx_iff wf idx (ix2 e j) n j).mpr ⟨hA, rfl⟩)]
    · intro b _ hb
      rw [if_neg]
      intro h
      exact hb (Fin.ext ((rowAdd_resultIdx_iff wf idx (ix2 e b) n j).mp h).2)
    · intro h
      exact absurd (Finset.mem_univ j) h
  · -- Row e scatters elsewhere, or is dropped: none of its columns lands at (n, j).
    rw [if_neg hA]
    refine Finset.sum_eq_zero fun b _ => ?_
    rw [if_neg]
    intro h
    exact hA ((rowAdd_resultIdx_iff wf idx (ix2 e b) n j).mp h).1

end Cert.LibRowScatter

end
-- ==== Proof.Spec.lean ====
/-
  The mathematics of the claim, free of any program.

  A graph has edges e and nodes n.  Every edge carries a gathered node row xr e (64 entries) and an edge row
  ea e (32 entries); the first layer is hidden e h = sum over k of [xr e | ea e] k * W1 k h + b1 h (128 entries), and a
  node collects the edges that land on it.  The second layer is out n j = sum over k of [x n | agg n] k * W2 k j + b2 j.

  One side sums the hidden rows of the edges landing on a node and only then multiplies by the lower 128 rows of W2;
  the other multiplies every edge's hidden row by those rows first and sums the 64-entry products.  The two agree because
  a finite sum commutes with multiplication by a fixed factor, (sum over e of a e) * w = sum over e of (a e * w), and two finite sums
  commute.  On the extended reals the first law needs every summand and the factor to be real numbers: with an infinite
  factor and summands of both signs it fails.  So the law is proved over the reals and carried to the extended reals
  through the inclusion, which commutes with sums and products of reals.
-/
import Idealize.ShloMosaic.PureOps.Ideal

noncomputable section

open scoped BigOperators

namespace Cert.Spec

/-- Row k of the upper 64 rows of a 96-row matrix. -/
def lo96 (k : Fin 64) : Fin 96 := ⟨k.val, by omega⟩
/-- Row k of the lower 32 rows of a 96-row matrix. -/
def hi96 (k : Fin 32) : Fin 96 := ⟨64 + k.val, by omega⟩
/-- Row k of the upper 64 rows of a 192-row matrix. -/
def lo192 (k : Fin 64) : Fin 192 := ⟨k.val, by omega⟩
/-- Row h of the lower 128 rows of a 192-row matrix. -/
def hi192 (h : Fin 128) : Fin 192 := ⟨64 + h.val, by omega⟩

section Defs

variable {R : Type} [AddCommMonoid R] [Mul R] {E N : Type} [Fintype E]

/-- The first layer with its weight matrix split in two blocks of rows: the gathered row against the upper 64 rows, the
    edge row against the lower 32, then the bias. -/
def hiddenK (xr : E → Fin 64 → R) (ea : E → Fin 32 → R) (W1 : Fin 96 → Fin 128 → R) (b1 : Fin 128 → R)
    (e : E) (h : Fin 128) : R :=
  (∑ k : Fin 64, xr e k * W1 (lo96 k) h + ∑ k : Fin 32, ea e k * W1 (hi96 k) h) + b1 h

/-- An edge's hidden row already multiplied by the lower 128 rows of the second weight matrix. -/
def msg64 (xr : E → Fin 64 → R) (ea : E → Fin 32 → R) (W1 : Fin 96 → Fin 128 → R) (b1 : Fin 128 → R)
    (W2 : Fin 192 → Fin 64 → R) (e : E) (j : Fin 64) : R :=
  ∑ h : Fin 128, hiddenK xr ea W1 b1 e h * W2 (hi192 h) j

/-- Multiply first, collect afterwards: the node's own row against the upper 64 rows of W2, plus the 64-entry
    products of the edges landing on the node, plus the bias. -/
def outK (x : N → Fin 64 → R) (xr : E → Fin 64 → R) (ea : E → Fin 32 → R) (W1 : Fin 96 → Fin 128 → R)
    (b1 : Fin 128 → R) (W2 : Fin 192 → Fin 64 → R) (b2 : Fin 64 → R) (land : E → N → Prop)
    [∀ n, DecidablePred fun e => land e n] (n : N) (j : Fin 64) : R :=
  (∑ k : Fin 64, x n k * W2 (lo192 k) j + ∑ e ∈ Finset.univ.filter (fun e => land e n), msg64 xr ea W1 b1 W2 e j) + b2 j

/-- The gathered row and the edge row side by side, 96 entries. -/
def cat1 (xr : E → Fin 64 → R) (ea : E → Fin 32 → R) (e : E) (k : Fin 96) : R :=
  if h : k.val < 64 then xr e ⟨k.val, h⟩ else ea e ⟨k.val - 64, by omega⟩

/-- The first layer over the joined row. -/
def hiddenR (xr : E → Fin 64 → R) (ea : E → Fin 32 → R) (W1 : Fin 96 → Fin 128 → R) (b1 : Fin 128 → R)
    (e : E) (h : Fin 128) : R :=
  ∑ k : Fin 96, cat1 xr ea e k * W1 k h + b1 h

/-- What a node collects: the hidden rows of the edges landing on it, summed. -/
def aggR (xr : E → Fin 64 → R) (ea : E → Fin 32 → R) (W1 : Fin 96 → Fin 128 → R) (b1 : Fin 128 → R)
    (land : E → N → Prop) [∀ n, DecidablePred fun e => land e n] (n : N) (h : Fin 128) : R :=
  ∑ e ∈ Finset.univ.filter (fun e => land e n), hiddenR xr ea W1 b1 e h

/-- The node's own row and what it collected side by side, 192 entries. -/
def cat2 (x : N → Fin 64 → R) (agg : N → Fin 128 → R) (n : N) (k : Fin 192) : R :=
  if h : k.val < 64 then x n ⟨k.val, h⟩ else agg n ⟨k.val - 64, by omega⟩

/-- Collect first, multiply afterwards: the second layer over the joined row. -/
def outR (x : N → Fin 64 → R) (xr : E → Fin 64 → R) (ea : E → Fin 32 → R) (W1 : Fin 96 → Fin 128 → R)
    (b1 : Fin 128 → R) (W2 : Fin 192 → Fin 64 → R) (b2 : Fin 64 → R) (land : E → N → Prop)
    [∀ n, DecidablePred fun e => land e n] (n : N) (j : Fin 64) : R :=
  ∑ k : Fin 192, cat2 x (aggR xr ea W1 b1 land) n k * W2 k j + b2 j

end Defs

section Blocks

variable {M : Type} [AddCommMonoid M]

/-- A sum over 96 rows is the sum over the upper 64 rows plus the sum over the lower 32. -/
theorem sum_fin96 (f : Fin 96 → M) :
    ∑ k : Fin 96, f k = ∑ k : Fin 64, f (lo96 k) + ∑ k : Fin 32, f (hi96 k) :=
  Fin.sum_univ_add (a := 64) (b := 32) f

/-- A sum over 192 rows is the sum over the upper 64 rows plus the sum over the lower 128. -/
theorem sum_fin192 (f : Fin 192 → M) :
    ∑ k : Fin 192, f k = ∑ k : Fin 64, f (lo192 k) + ∑ h : Fin 128, f (hi192 h) :=
  Fin.sum_univ_add (a := 64) (b := 128) f

end Blocks

section Generic

variable {R : Type} [AddCommMonoid R] [Mul R] {E N : Type} [Fintype E]

/-- The joined 96-entry row read in its upper block is the gathered row. -/
theorem cat1_lo (xr : E → Fin 64 → R) (ea : E → Fin 32 → R) (e : E) (k : Fin 64) :
    cat1 xr ea e (lo96 k) = xr e k := by
  unfold cat1 lo96
  rw [dif_pos k.isLt]

/-- The joined 96-entry row read in its lower block is the edge row. -/
theorem cat1_hi (xr : E → Fin 64 → R) (ea : E → Fin 32 → R) (e : E) (k : Fin 32) :
    cat1 xr ea e (hi96 k) = ea e k := by
  unfold cat1 hi96
  rw [dif_neg (by simp)]
  congr 1
  exact Fin.ext (Nat.add_sub_cancel_left _ _)

/-- The joined 192-entry row read in its upper block is the node's own row. -/
theorem cat2_lo (x : N → Fin 64 → R) (agg : N → Fin 128 → R) (n : N) (k : Fin 64) :
    cat2 x agg n (lo192 k) = x n k := by
  unfold cat2 lo192
  rw [dif_pos k.isLt]

/-- The joined 192-entry row read in its lower block is what the node collected. -/
theorem cat2_hi (x : N → Fin 64 → R) (agg : N → Fin 128 → R) (n : N) (h : Fin 128) :
    cat2 x agg n (hi192 h) = agg n h := by
  unfold cat2 hi192
  rw [dif_neg (by simp)]
  congr 1
  exact Fin.ext (Nat.add_sub_cancel_left _ _)

/-- The first layer over the joined row is the first layer with the weight matrix split in two blocks: this needs
    no law of multiplication, only the splitting of the sum over 96 rows. -/
theorem hiddenR_eq_hiddenK (xr : E → Fin 64 → R) (ea : E → Fin 32 → R) (W1 : Fin 96 → Fin 128 → R)
    (b1 : Fin 128 → R) (e : E) (h : Fin 128) :
    hiddenR xr ea W1 b1 e h = hiddenK xr ea W1 b1 e h := by
  unfold hiddenR hiddenK
  rw [sum_fin96]
  simp only [cat1_lo, cat1_hi]

/-- Collect first, multiply afterwards, with the sum over 192 rows split in its two blocks: the node's own row against
    the upper 64 rows of W2, plus the collected hidden rows against the lower 128. -/
theorem outR_split (x : N → Fin 64 → R) (xr : E → Fin 64 → R) (ea : E → Fin 32 → R) (W1 : Fin 96 → Fin 128 → R)
    (b1 : Fin 128 → R) (W2 : Fin 192 → Fin 64 → R) (b2 : Fin 64 → R) (land : E → N → Prop)
    [∀ n, DecidablePred fun e => land e n] (n : N) (j : Fin 64) :
    outR x xr ea W1 b1 W2 b2 land n j =
      (∑ k : Fin 64, x n k * W2 (lo192 k) j +
        ∑ h : Fin 128, (∑ e ∈ Finset.univ.filter (fun e => land e n), hiddenK xr ea W1 b1 e h) * W2 (hi192 h) j)
        + b2 j := by
  unfold outR
  rw [sum_fin192]
  simp only [cat2_lo, cat2_hi, aggR, hiddenR_eq_hiddenK]

end Generic

section Reals

/-- An extended real that is the inclusion of a real number. -/
def IsReal (a : EReal) : Prop := ∃ r : ℝ, a = (r : EReal)

theorem IsReal.add {a b : EReal} (ha : IsReal a) (hb : IsReal b) : IsReal (a + b) := by
  obtain ⟨p, rfl⟩ := ha
  obtain ⟨q, rfl⟩ := hb
  exact ⟨p + q, (EReal.coe_add p q).symm⟩

theorem IsReal.mul {a b : EReal} (ha : IsReal a) (hb : IsReal b) : IsReal (a * b) := by
  obtain ⟨p, rfl⟩ := ha
  obtain ⟨q, rfl⟩ := hb
  exact ⟨p * q, (EReal.coe_mul p q).symm⟩

/-- A finite sum of real numbers is a real number. -/
theorem IsReal.sum {ι : Type} (s : Finset ι) (a : ι → EReal) (h : ∀ i ∈ s, IsReal (a i)) :
    IsReal (∑ i ∈ s, a i) :=
  Finset.sum_induction a IsReal (fun _ _ => IsReal.add) ⟨0, EReal.coe_zero.symm⟩ h

/-- On real summands and a real factor, the sum times the factor is the sum of the products. -/
theorem sum_mul_of_isReal {ι : Type} (s : Finset ι) (a : ι → EReal) (w : EReal)
    (ha : ∀ i ∈ s, IsReal (a i)) (hw : IsReal w) :
    (∑ i ∈ s, a i) * w = ∑ i ∈ s, a i * w := by
  classical
  induction s using Finset.induction_on with
  | empty => simp
  | insert i s hi ih =>
    have hs : ∀ k ∈ s, IsReal (a k) := fun k hk => ha k (Finset.mem_insert_of_mem hk)
    rw [Finset.sum_insert hi, Finset.sum_insert hi, ← ih hs]
    obtain ⟨p, hp⟩ := ha i (Finset.mem_insert_self i s)
    obtain ⟨q, hq⟩ := IsReal.sum s a hs
    obtain ⟨r, rfl⟩ := hw
    rw [hp, hq, ← EReal.coe_add, ← EReal.coe_mul, add_mul, EReal.coe_add, EReal.coe_mul, EReal.coe_mul]

/-- On real arrays every entry of an edge's hidden row is a real number. -/
theorem hiddenK_isReal {E : Type} (xr : E → Fin 64 → EReal) (ea : E → Fin 32 → EReal)
    (W1 : Fin 96 → Fin 128 → EReal) (b1 : Fin 128 → EReal)
    (hxr : ∀ e k, IsReal (xr e k)) (hea : ∀ e k, IsReal (ea e k)) (hW1 : ∀ k h, IsReal (W1 k h))
    (hb1 : ∀ h, IsReal (b1 h)) (e : E) (h : Fin 128) : IsReal (hiddenK xr ea W1 b1 e h) := by
  unfold hiddenK
  exact ((IsReal.sum _ _ fun k _ => IsReal.mul (hxr e k) (hW1 _ h)).add
    (IsReal.sum _ _ fun k _ => IsReal.mul (hea e k) (hW1 _ h))).add (hb1 h)

end Reals

/-- THE LAW ON THE EXTENDED REALS: when every entry of every array is a real number, multiplying before collecting and
    collecting before multiplying give the same node rows. -/
theorem outK_eq_outR {E N : Type} [Fintype E] (x : N → Fin 64 → EReal) (xr : E → Fin 64 → EReal) (ea : E → Fin 32 → EReal)
    (W1 : Fin 96 → Fin 128 → EReal) (b1 : Fin 128 → EReal) (W2 : Fin 192 → Fin 64 → EReal) (b2 : Fin 64 → EReal)
    (land : E → N → Prop) [∀ n, DecidablePred fun e => land e n]
    (hx : ∀ n k, ∃ r : ℝ, x n k = (r : EReal)) (hxr : ∀ e k, ∃ r : ℝ, xr e k = (r : EReal))
    (hea : ∀ e k, ∃ r : ℝ, ea e k = (r : EReal)) (hW1 : ∀ k h, ∃ r : ℝ, W1 k h = (r : EReal))
    (hb1 : ∀ h, ∃ r : ℝ, b1 h = (r : EReal)) (hW2 : ∀ k j, ∃ r : ℝ, W2 k j = (r : EReal))
    (hb2 : ∀ j, ∃ r : ℝ, b2 j = (r : EReal)) (n : N) (j : Fin 64) :
    outK x xr ea W1 b1 W2 b2 land n j = outR x xr ea W1 b1 W2 b2 land n j := by
  rw [outR_split]
  unfold outK msg64
  congr 2
  rw [Finset.sum_comm]
  refine Finset.sum_congr rfl fun h _ => ?_
  exact (sum_mul_of_isReal _ _ _ (fun e _ => hiddenK_isReal xr ea W1 b1 hxr hea hW1 hb1 e h) (hW2 _ j)).symm

end Cert.Spec

end
-- ==== Proof.KernelHost.lean ====
/-
  The host operations around the two regions, read as values: what each window's array holds when its region is
  entered.

  Before the first region the program takes row 0 of the edge-index array (the source node of every edge), wraps a
  negative index once by adding 100000, and gathers the source nodes' rows; a gathered row whose wrapped index is not in
  [0, 99999] is replaced by a fill value.  When every source index is already in [0, 100000) the wrap does nothing, the
  range test passes on every edge, and what the region receives is the plain gather.  The four weight blocks are
  slices: rows 0 … 63 and 64 … 95 of the first matrix, rows 0 … 63 and 64 … 191 of the second.

  Between the regions the first region's output rows are added into a zero array at the rows named by row 1 of the
  edge-index array (the target node of every edge): entry (n, j) is the sum, over the edges whose target is n, of
  their entry j.
-/
import proofs.«428547_j10393820857011_3_alg».proof.Proof.Gen.KernelIdeal.Frame
import proofs.«428547_j10393820857011_3_alg».proof.Proof.LibPlainAny
import proofs.«428547_j10393820857011_3_alg».proof.Proof.LibLayout2
import Idealize.ShloMosaic.Lib.Pipeline.Value
import Idealize.ShloMosaic.Lib.ValueIdx
import Idealize.ShloMosaic.Lib.ValueLayout
import Idealize.ShloMosaic.PureOps.Ideal.Laws
import proofs.«428547_j10393820857011_3_alg».proof.Proof.LibRowScatter
import proofs.«428547_j10393820857011_3_alg».proof.Proof.Spec
import Idealize.ShloMosaic.Lib.StableHlo.Run
import Idealize.ShloMosaic.Lib.ReduceAll
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen

/-- Row 0 of the edge-index array as a vector: every edge's source node. -/
def rowK (EI : IVec S2x1600000 32) : IVec S1600000 32 :=
  shapeCast S1600000 (extractStridedSlice S1x1600000 ![0, 0] EI slices_S2x1600000_S1x1600000_0_0) shapeCasts_S1x1600000_S1600000

/-- The source indices as the gather takes them: a negative one wrapped once by adding 100000, as one column. -/
def rowIdxK (EI : IVec S2x1600000 32) : IVec S1600000x1 32 :=
  broadcastInDim S1600000x1 ![0] bcast_S1600000_S1600000x1_0
    (select (cmpi .slt (rowK EI) (broadcastInDim S1600000 ![] bcast_S_S1600000 (constantI S_ 32 0#32)))
      (addi (rowK EI) (broadcastInDim S1600000 ![] bcast_S_S1600000 (constantI S_ 32 100000#32))) (rowK EI))

/-- The gathered rows: edge e's row is the node array's row at e's (wrapped, clamped) source index. -/
def xrK (X : S100000x64.Idx → EReal) (EI : IVec S2x1600000 32) : S1600000x64.Idx → EReal :=
  Host.gather gather_S100000x64_S1600000x1_S1600000x64_1_0_n_n_0_1_164 X (rowIdxK EI)

/-- Row 1 of the edge-index array as one column: every edge's target node. -/
def colK (EI : IVec S2x1600000 32) : IVec S1600000x1 32 :=
  broadcastInDim S1600000x1 ![0] bcast_S1600000_S1600000x1_0
    (shapeCast S1600000 (extractStridedSlice S1x1600000 ![1, 0] EI slices_S2x1600000_S1x1600000_1_0) shapeCasts_S1x1600000_S1600000)

/-! ## The range test on one index word -/

/-- A left fold by "and" from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e1 : IntOp.andi 1#1 (f a) = 1#1 := by rw [h a List.mem_cons_self]; decide
    rw [List.foldl_cons, e1]
    exact foldl_andi_one f l fun n hn => h n (List.mem_cons_of_mem _ hn)

/-- A reduction by "and" from the constant 1 of an array whose every entry is 1 is 1 at every index. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun i _ => hx i

/-- A word in [0, 100000) read signed is not negative, so the wrap leaves it as it is. -/
theorem wrap_eq (r : BitVec 32) (h0 : 0 ≤ r.toInt) :
    Scalar.select (IntOp.cmpi .slt r 0#32) (IntOp.addi r 100000#32) r = r := by
  have hn : ¬ IntOp.cmpi .slt r 0#32 = 1#1 := by
    rw [IntOp.cmpi_slt]
    have : (0#32 : BitVec 32).toInt = 0 := by decide
    omega
  exact if_neg hn

/-- A word in [0, 100000) passes both halves of the range test. -/
theorem inRange_eq (r : BitVec 32) (h0 : 0 ≤ r.toInt) (h1 : r.toInt < 100000) :
    IntOp.andi (IntOp.cmpi .sge r 0#32) (IntOp.cmpi .sle r 99999#32) = 1#1 := by
  rw [IntOp.andi_eq_one, IntOp.cmpi_sge, IntOp.cmpi_sle]
  have e0 : (0#32 : BitVec 32).toInt = 0 := by decide
  have e1 : (99999#32 : BitVec 32).toInt = 99999 := by decide
  omega

/-! ## The outlined take, as terms of its two inputs -/

/-- The source indices as the gather takes them, from the row of source nodes: a negative one wrapped once by adding
    100000, as one column. -/
def idxOf (R : IVec S1600000 32) : IVec S1600000x1 32 :=
  broadcastInDim S1600000x1 ![0] bcast_S1600000_S1600000x1_0
    (select (cmpi .slt R (broadcastInDim S1600000 ![] bcast_S_S1600000 (constantI S_ 32 0#32)))
      (addi R (broadcastInDim S1600000 ![] bcast_S_S1600000 (constantI S_ 32 100000#32))) R)

theorem rowIdxK_eq (EI : IVec S2x1600000 32) : rowIdxK EI = idxOf (rowK EI) := rfl

/-- The range test of the take, per edge: the "and", over the one column, of index ≥ 0 and index ≤ 99999. -/
def maskOf (I : IVec S1600000x1 32) : IVec S1600000 1 :=
  Host.reduce IntOp.andi
    (andi (cmpi .sge I (broadcastInDim S1600000x1 ![] bcast_S_S1600000x1 (constantI S_ 32 0#32)))
      (cmpi .sle I (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The take: the gathered rows, a row whose index fails the range test replaced by the fill value. -/
def takeOf (X : S100000x64.Idx → EReal) (I : IVec S1600000x1 32) : S1600000x64.Idx → EReal :=
  select (broadcastInDim S1600000x64 ![0] bcast_S1600000_S1600000x64_0 (maskOf I))
    (Host.gather gather_S100000x64_S1600000x1_S1600000x64_1_0_n_n_0_1_164 X I)
    (broadcastInDim S1600000x64 ![] bcast_S_S1600000x64 (constant (F := Ideal) S_ .f32 0x7FC00000#32))

/-! ## The take's inputs read at an edge -/

/-- Row 0 of the edge-index array, as a vector, at edge e. -/
theorem rowK_apply (EI : IVec S2x1600000 32) (e : Fin 1600000) : rowK EI (ix1 e) = EI (ix2 (0 : Fin 2) e) := by
  unfold rowK
  rw [shapeCast_apply _ shapeCasts_S1x1600000_S1600000 (ix1 e) (ix2 (0 : Fin 1) e) (by
    rw [Shape.rowMajor_val_two, Shape.rowMajor_val_one]
    show 0 * 1600000 + e.val = e.val
    omega)]
  exact extractStridedSlice_apply ![0, 0] EI slices_S2x1600000_S1x1600000_0_0 (ix2 (0 : Fin 1) e) (ix2 (0 : Fin 2) e)
    (fun a => match a with
      | ⟨0, _⟩ => by show (0 : ℕ) = 0 + 0; rfl
      | ⟨1, _⟩ => by show e.val = 0 + e.val; omega)

/-- The wrapped index at edge e is the source row's word there, when that word is not negative. -/
theorem idxOf_apply (R : IVec S1600000 32) (e : Fin 1600000) (u : Fin 1) (h0 : 0 ≤ (R (ix1 e)).toInt) :
    idxOf R (ix2 e u) = R (ix1 e) := by
  unfold idxOf
  rw [broadcastInDim_apply ![0] bcast_S1600000_S1600000x1_0 _ (ix2 e u) (ix1 e) (fun a => by
    match a with
    | ⟨0, _⟩ =>
      show e.val = if (1600000 : ℕ) = 1 then 0 else e.val
      rw [if_neg (by decide)])]
  rw [select_apply]
  exact wrap_eq (R (ix1 e)) h0

/-- With every index in [0, 100000) the range test passes on every edge. -/
theorem maskOf_one (I : IVec S1600000x1 32) (hI : ∀ i, 0 ≤ (I i).toInt ∧ (I i).toInt < 100000) (j : S1600000.Idx) :
    maskOf I j = 1#1 := by
  unfold maskOf
  exact reduce_andi_one _ _ _ _ (fun _ => rfl) (fun i => inRange_eq (I i) (hI i).1 (hI i).2) j

/-- A vector over the edges broadcast over the 64 columns reads, at (e, q), its entry e. -/
theorem bcast_rows_apply {α : Type} (x : S1600000.Idx → α) (e : Fin 1600000) (q : Fin 64) :
    broadcastInDim S1600000x64 ![0] bcast_S1600000_S1600000x64_0 x (ix2 e q) = x (ix1 e) :=
  broadcastInDim_apply ![0] bcast_S1600000_S1600000x64_0 x (ix2 e q) (ix1 e) fun a => by
    match a with
    | ⟨0, _⟩ =>
      show e.val = if (1600000 : ℕ) = 1 then 0 else e.val
      rw [if_neg (by decide)]

/-- A select whose condition is 1 takes its first value. -/
theorem select_one {α : Type} (a b : α) : Scalar.select 1#1 a b = a := rfl

/-! ## The casts of the typed references -/

/-- Contents moved to a typed reference's buffer type and back are as they were. -/
theorem ofBuf_toBuf {Val : EltTy → Type} {T : BufTy} (x : StableHlo.TRef sig T) (v : T.Contents Val) :
    x.ofBuf (x.toBuf v) = v := by
  obtain ⟨r, rfl, _, _⟩ := x
  rfl

/-- At the buffer of the source row the cast is the identity. -/
theorem ofBuf_v1 (V : Valuation τ sig (Elt Ideal)) (p1 : main_v1.ty = (⟨S1600000, .i32⟩ : BufTy)) (p2 p3) :
    (StableHlo.TRef.of main_v1 p1 p2 p3).ofBuf (V (Proc.devRef .tc main_v1))
      = (V (Proc.devRef .tc main_v1) : S1600000.Idx → BitVec 32) := rfl

/-- At the buffer of the node array the cast is the identity. -/
theorem ofBuf_arg0 (V : Valuation τ sig (Elt Ideal)) (p1 : main_arg0.ty = (⟨S100000x64, .f32⟩ : BufTy)) (p2 p3) :
    (StableHlo.TRef.of main_arg0 p1 p2 p3).ofBuf (V (Proc.devRef .tc main_arg0))
      = (V (Proc.devRef .tc main_arg0) : S100000x64.Idx → EReal) := rfl

/-- At the buffer of the take's result the cast is the identity. -/
theorem toBuf_v4 (p1 : main_v4.ty = (⟨S1600000x64, .f32⟩ : BufTy)) (p2 p3)
    (v : (⟨S1600000x64, .f32⟩ : BufTy).Contents (Elt Ideal)) :
    ((StableHlo.TRef.of main_v4 p1 p2 p3).toBuf v : S1600000x64.Idx → EReal) = v := rfl

/-! ## The three stretches before the first region, each from any contents -/

/-- The first stretch leaves, in the buffer of the source row, row 0 of the edge-index argument. -/
theorem stretch0_v1 (V : Valuation τ sig (Elt Ideal)) :
    (StableHlo.after hostOps0 V (Proc.devRef .tc main_v1) : S1600000.Idx → BitVec 32)
      = rowK (V (Proc.devRef .tc main_arg1)) := by
  after_results
  rfl

/-- The first stretch does not write the node array. -/
theorem stretch0_arg0 (V : Valuation τ sig (Elt Ideal)) :
    StableHlo.after hostOps0 V (Proc.devRef .tc main_arg0) = V (Proc.devRef .tc main_arg0) := by
  after_results

set_option maxHeartbeats 400000 in
/-- The second stretch, the outlined take, leaves the take of the node array at the wrapped source indices. -/
theorem stretch1_v4 (V : Valuation τ sig (Elt Ideal)) :
    (StableHlo.after hostOps0_1 V (Proc.devRef .tc main_v4) : S1600000x64.Idx → EReal)
      = takeOf (V (Proc.devRef .tc main_arg0)) (idxOf (V (Proc.devRef .tc main_v1))) := by
  after_results_simp
  simp only [ofBuf_toBuf, ofBuf_v1, ofBuf_arg0, toBuf_v4]
  unfold takeOf maskOf idxOf
  with_reducible rfl

/-- The third stretch rounds the take's result to bf16. -/
theorem stretch2_v5 (V : Valuation τ sig (Elt Ideal)) :
    (StableHlo.after hostOps0_2 V (Proc.devRef .tc main_v5) : S1600000x64.Idx → EReal)
      = (truncf .bf16 (V (Proc.devRef .tc main_v4) : FVec Ideal S1600000x64 .f32) bitsLt_bf16_f32
          : FVec Ideal S1600000x64 .bf16) := by
  after_results

variable (m : (ℓ : Loc nD τ sig) → Buf (Elt Ideal) ℓ) (ρ : Dev nD → PrngReg)

/-! ## The first region's arrays at its entry -/

/-- The first window's array at the first region's entry: the take of the node argument at the wrapped source
    indices, rounded to bf16. Each stretch is read from the contents the one before leaves. -/
theorem V3_v5_take (c : Dev nD) :
    (V3 m ρ c main_v5 : S1600000x64.Idx → EReal)
      = (truncf .bf16 (takeOf (m ((c : Thread nD τ).loc main_arg0))
          (idxOf (rowK (m ((c : Thread nD τ).loc main_arg1))))) bitsLt_bf16_f32 : FVec Ideal S1600000x64 .bf16) := by
  have e2 : (V3 m ρ c main_v5 : S1600000x64.Idx → EReal)
      = (truncf .bf16 (W2 m ρ c (Proc.devRef .tc main_v4) : FVec Ideal S1600000x64 .f32) bitsLt_bf16_f32
          : FVec Ideal S1600000x64 .bf16) := stretch2_v5 (W2 m ρ c)
  have e1 : (W2 m ρ c (Proc.devRef .tc main_v4) : S1600000x64.Idx → EReal)
      = takeOf (W1 m ρ c (Proc.devRef .tc main_arg0)) (idxOf (W1 m ρ c (Proc.devRef .tc main_v1))) :=
    stretch1_v4 (W1 m ρ c)
  have e0 : (W1 m ρ c (Proc.devRef .tc main_v1) : S1600000.Idx → BitVec 32)
      = rowK (m ((c : Thread nD τ).loc main_arg1)) := stretch0_v1 (W0 m ρ c)
  have e0' : (W1 m ρ c (Proc.devRef .tc main_arg0) : S100000x64.Idx → EReal)
      = m ((c : Thread nD τ).loc main_arg0) := stretch0_arg0 (W0 m ρ c)
  rw [e2, e1, e0, e0']

/-- With every source index in range the first window's array is the plain gather: the fill is never taken, and on the
    extended reals the rounding to bf16 is the identity. -/
theorem V3_v5 (c : Dev nD)
    (hrow : ∀ e : Fin 1600000, 0 ≤ (m ((c : Thread nD τ).loc main_arg1) (ix2 (0 : Fin 2) e)).toInt
      ∧ (m ((c : Thread nD τ).loc main_arg1) (ix2 (0 : Fin 2) e)).toInt < 100000) :
    V3 m ρ c main_v5 = xrK (m ((c : Thread nD τ).loc main_arg0)) (m ((c : Thread nD τ).loc main_arg1)) := by
  refine (V3_v5_take m ρ c).trans ?_
  have hI : ∀ i' : S1600000x1.Idx,
      0 ≤ (idxOf (rowK (m ((c : Thread nD τ).loc main_arg1))) i').toInt
        ∧ (idxOf (rowK (m ((c : Thread nD τ).loc main_arg1))) i').toInt < 100000 := fun i' => by
    obtain ⟨e', u, rfl⟩ : ∃ (e' : Fin 1600000) (u : Fin 1), i' = ix2 e' u := ⟨i' 0, i' 1, eq_ix2 i'⟩
    rw [idxOf_apply _ e' u (by rw [rowK_apply]; exact (hrow e').1), rowK_apply]
    exact hrow e'
  funext i
  obtain ⟨e, q, rfl⟩ : ∃ (e : Fin 1600000) (q : Fin 64), i = ix2 e q := ⟨i 0, i 1, eq_ix2 i⟩
  rw [truncf_apply]
  unfold takeOf xrK
  rw [select_apply, bcast_rows_apply, maskOf_one _ hI, select_one, rowIdxK_eq]

/-- A buffer none of the operations of a stretch writes holds after it what it held before. -/
local macro "stretch_keeps" : tactic => `(tactic| (
  refine StableHlo.after_of_forall_not_mem _ _ (List.forall_iff_forall_mem.mp ?_)
  simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem V3_arg2 (c : Dev nD) : V3 m ρ c main_arg2 = m ((c : Thread nD τ).loc main_arg2) :=
  calc V3 m ρ c main_arg2
    _ = W2 m ρ c (Proc.devRef .tc main_arg2) := by stretch_keeps
    _ = W1 m ρ c (Proc.devRef .tc main_arg2) := by stretch_keeps
    _ = W0 m ρ c (Proc.devRef .tc main_arg2) := by stretch_keeps
    _ = m ((c : Thread nD τ).loc main_arg2) := rfl

/-- The upper block of the first weight matrix. -/
theorem V3_v6 (c : Dev nD) (k : Fin 64) (h : Fin 128) :
    V3 m ρ c main_v6 (ix2 k h) = m ((c : Thread nD τ).loc main_arg5) (ix2 (Cert.Spec.lo96 k) h) := by
  have e : (V3 m ρ c main_v6 : S64x128.Idx → EReal)
      = extractStridedSlice S64x128 ![0, 0] (m ((c : Thread nD τ).loc main_arg5)) slices_S96x128_S64x128_0_0 := by
    show StableHlo.after hostOps0_2 (W2 m ρ c) (Proc.devRef .tc main_v6) = _
    after_results
  rw [e]
  exact extractStridedSlice_apply ![0, 0] _ slices_S96x128_S64x128_0_0 (ix2 k h) (ix2 (Cert.Spec.lo96 k) h) (fun a => match a with
    | ⟨0, _⟩ => by show k.val = 0 + k.val; omega
    | ⟨1, _⟩ => by show h.val = 0 + h.val; omega)

/-- The lower block of the first weight matrix. -/
theorem V3_v7 (c : Dev nD) (k : Fin 32) (h : Fin 128) :
    V3 m ρ c main_v7 (ix2 k h) = m ((c : Thread nD τ).loc main_arg5) (ix2 (Cert.Spec.hi96 k) h) := by
  have e : (V3 m ρ c main_v7 : S32x128.Idx → EReal)
      = extractStridedSlice S32x128 ![64, 0] (m ((c : Thread nD τ).loc main_arg5)) slices_S96x128_S32x128_64_0 := by
    show StableHlo.after hostOps0_2 (W2 m ρ c) (Proc.devRef .tc main_v7) = _
    after_results
  rw [e]
  exact extractStridedSlice_apply ![64, 0] _ slices_S96x128_S32x128_64_0 (ix2 k h) (ix2 (Cert.Spec.hi96 k) h) (fun a => match a with
    | ⟨0, _⟩ => by show 64 + k.val = 64 + k.val; rfl
    | ⟨1, _⟩ => by show h.val = 0 + h.val; omega)

theorem V3_arg6 (c : Dev nD) : V3 m ρ c main_arg6 = m ((c : Thread nD τ).loc main_arg6) :=
  calc V3 m ρ c main_arg6
    _ = W2 m ρ c (Proc.devRef .tc main_arg6) := by stretch_keeps
    _ = W1 m ρ c (Proc.devRef .tc main_arg6) := by stretch_keeps
    _ = W0 m ρ c (Proc.devRef .tc main_arg6) := by stretch_keeps
    _ = m ((c : Thread nD τ).loc main_arg6) := rfl

/-- The lower block of the second weight matrix. -/
theorem V3_v9 (c : Dev nD) (h : Fin 128) (j : Fin 64) :
    V3 m ρ c main_v9 (ix2 h j) = m ((c : Thread nD τ).loc main_arg7) (ix2 (Cert.Spec.hi192 h) j) := by
  have e : (V3 m ρ c main_v9 : S128x64.Idx → EReal)
      = extractStridedSlice S128x64 ![64, 0] (m ((c : Thread nD τ).loc main_arg7)) slices_S192x64_S128x64_64_0 := by
    show StableHlo.after hostOps0_2 (W2 m ρ c) (Proc.devRef .tc main_v9) = _
    after_results
  rw [e]
  exact extractStridedSlice_apply ![64, 0] _ slices_S192x64_S128x64_64_0 (ix2 h j) (ix2 (Cert.Spec.hi192 h) j) (fun a => match a with
    | ⟨0, _⟩ => by show 64 + h.val = 64 + h.val; rfl
    | ⟨1, _⟩ => by show j.val = 0 + j.val; omega)

end Cert.KernelIdeal.Host

end
-- ==== Proof.KernelMid.lean ====
/-
  The host operations between the two regions, read as values: what each window's array of the second region holds
  when that region is entered.

  The first region's output rows are added into a zero array at the rows named by row 1 of the edge-index array (the
  target node of every edge; a target outside [0, 100000) drops its row): entry (n, j) is the sum, over the edges whose
  target is n, of their entry j.  The node array and the bias are the arguments themselves, and the upper block of the
  second weight matrix is its rows 0 … 63.
-/
import proofs.«428547_j10393820857011_3_alg».proof.Proof.Gen.KernelIdeal.Frame
import proofs.«428547_j10393820857011_3_alg».proof.Proof.LibPlainAny
import proofs.«428547_j10393820857011_3_alg».proof.Proof.LibLayout2
import Idealize.ShloMosaic.Lib.Pipeline.Value
import Idealize.ShloMosaic.Lib.ValueIdx
import Idealize.ShloMosaic.Lib.ValueLayout
import Idealize.ShloMosaic.PureOps.Ideal.Laws
import proofs.«428547_j10393820857011_3_alg».proof.Proof.KernelHost
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen

variable (m : (ℓ : Loc nD τ sig) → Buf (Elt Ideal) ℓ) (ρ : Dev nD → PrngReg)

/-! ## The second region's arrays at its entry -/

theorem V5_arg0 (c : Dev nD) : V5 m ρ c main_arg0 = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The target indices: row 1 of the edge-index argument as a vector, written before the first region and by nothing
    after it. -/
private theorem W4_targetVec (c : Dev nD) : W4 m ρ c (Proc.devRef .tc main_v3)
      = shapeCast S1600000 (extractStridedSlice S1x1600000 ![1, 0] (m ((c : Thread nD τ).loc main_arg1))
          slices_S2x1600000_S1x1600000_1_0) shapeCasts_S1x1600000_S1600000 := by
  rw [W4_of_ne m ρ c main_v3 (by decide)]
  rw [show W3 m ρ c (Proc.devRef .tc main_v3) = W2 m ρ c (Proc.devRef .tc main_v3) from
    StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  rw [show W2 m ρ c (Proc.devRef .tc main_v3) = W1 m ρ c (Proc.devRef .tc main_v3) from
    StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  show StableHlo.after hostOps0 (W0 m ρ c) (Proc.devRef .tc main_v3) = _
  rw [hostOps0]
  after_results
  rfl

/-- The zero array read at an entry. -/
private theorem zeroArr_apply (n : Fin 100000) (j : Fin 64) :
    broadcastInDim S100000x64 ![] bcast_S_S100000x64 (constant (F := Ideal) S_ .f32 0x00000000#32) (ix2 n j)
      = (0 : EReal) := by
  show Ideal.ofBits .f32 0x00000000#32 = 0
  exact Ideal.ofBits_zero_f32

/-- The program's row scatter read at (n, j): the operand's entry plus the updates' entries (e, j) over the edges e
    whose index word, read signed, is n. -/
private theorem rowScatter_apply (X : S100000x64.Idx → EReal) (I : IVec S1600000x1 32) (U : S1600000x64.Idx → EReal)
    (n : Fin 100000) (j : Fin 64) :
    Host.scatterAdd (F := Ideal) (φ := .f32) scatter_S100000x64_S1600000x1_S1600000x64_1_0_0_1 X I U (ix2 n j)
      = X (ix2 n j) + ∑ e ∈ Finset.univ.filter (fun e : Fin 1600000 => (I (ix2 e (0 : Fin 1))).toInt = (n.val : Int)),
          U (ix2 e j) := by
  -- On the extended reals the host's accumulating scatter is the exact sum, and the printed dimension numbers are
  -- those of a row scatter.
  have e1 : Host.scatterAdd (F := Ideal) (φ := .f32) scatter_S100000x64_S1600000x1_S1600000x64_1_0_0_1 X I U
      = Ideal.hostScatterAdd scatter_S100000x64_S1600000x1_S1600000x64_1_0_0_1 X I U := rfl
  have e2 : scatter_S100000x64_S1600000x1_S1600000x64_1_0_0_1
      = Cert.LibRowScatter.rowAdd 100000 1600000 64 scatter_S100000x64_S1600000x1_S1600000x64_1_0_0_1_wf := rfl
  rw [e1, e2]
  exact Cert.LibRowScatter.scatterAdd_row_apply scatter_S100000x64_S1600000x1_S1600000x64_1_0_0_1_wf X I U n j

/-- Rows added into the zero array: entry (n, j) is the sum of the updates' entries (e, j) over the edges e whose index
    word, read signed, is n. -/
private theorem rowScatter_zero_apply (I : IVec S1600000x1 32) (U : S1600000x64.Idx → EReal) (n : Fin 100000) (j : Fin 64) :
    Host.scatterAdd (F := Ideal) (φ := .f32) scatter_S100000x64_S1600000x1_S1600000x64_1_0_0_1
        (broadcastInDim S100000x64 ![] bcast_S_S100000x64 (constant (F := Ideal) S_ .f32 0x00000000#32)) I U (ix2 n j)
      = ∑ e ∈ Finset.univ.filter (fun e : Fin 1600000 => (I (ix2 e (0 : Fin 1))).toInt = (n.val : Int)),
          U (ix2 e j) := by
  rw [rowScatter_apply, zeroArr_apply, zero_add]

/-- The first region's output array after its run, as an array of extended reals. -/
def msgArrK (c : Dev nD) : S1600000x64.Idx → EReal := (dat0 (F := Ideal) (V3 m ρ) c).arrAt 6 cfg0.N

theorem msgArrK_eq (c : Dev nD) (i : S1600000x64.Idx) :
    msgArrK m ρ c i = (dat0 (F := Ideal) (V3 m ρ) c).arrAt 6 cfg0.N i := rfl

/-- What a node collected: the first region's output rows of the edges whose target it is, summed. -/
theorem V5_v13 (c : Dev nD) (n : Fin 100000) (j : Fin 64) :
    V5 m ρ c main_v13 (ix2 n j)
      = ∑ e ∈ Finset.univ.filter (fun e : Fin 1600000 =>
            (colK (m ((c : Thread nD τ).loc main_arg1)) (ix2 e (0 : Fin 1))).toInt = (n.val : Int)),
          msgArrK m ρ c (ix2 e j) := by
  -- The updates: the first region's output array as its write-backs leave it.
  have h10 : W4 m ρ c (Proc.devRef .tc main_v10) = msgArrK m ρ c := W4_arr m ρ c 6
  -- The last operation of the stretch adds the updates' rows into the zero array, at the target indices as one column.
  have h5 : W5 m ρ c (Proc.devRef .tc main_v13)
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (W4 m ρ c (Proc.devRef .tc main_v3)))
          (W4 m ρ c (Proc.devRef .tc main_v10)) := by
    show StableHlo.after hostOps1 (W4 m ρ c) (Proc.devRef .tc main_v13) = _
    generalize W4 m ρ c = V
    rw [hostOps1]
    after_results
  show W5 m ρ c (Proc.devRef .tc main_v13) (ix2 n j) = _
  rw [h5, W4_targetVec, h10]
  unfold colK
  exact rowScatter_zero_apply _ _ n j

/-- The upper block of the second weight matrix. -/
theorem V5_v8 (c : Dev nD) (k : Fin 64) (j : Fin 64) :
    V5 m ρ c main_v8 (ix2 k j) = m ((c : Thread nD τ).loc main_arg7) (ix2 (Cert.Spec.lo192 k) j) := by
  -- The block's buffer is written once, before the first region, and by nothing after it.
  have h5 : W5 m ρ c (Proc.devRef .tc main_v8) = W4 m ρ c (Proc.devRef .tc main_v8) :=
    StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have h4 : W4 m ρ c (Proc.devRef .tc main_v8) = W3 m ρ c (Proc.devRef .tc main_v8) :=
    W4_of_ne m ρ c main_v8 (by decide)
  -- The matrix it is cut from is an argument: as launched.
  have h2 : W2 m ρ c (Proc.devRef .tc main_arg7) = W1 m ρ c (Proc.devRef .tc main_arg7) :=
    StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have h1 : W1 m ρ c (Proc.devRef .tc main_arg7) = W0 m ρ c (Proc.devRef .tc main_arg7) :=
    StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  -- The write itself: the slice of rows 0 … 63.
  have h3 : W3 m ρ c (Proc.devRef .tc main_v8)
      = extractStridedSlice S64x64 ![0, 0] (W2 m ρ c (Proc.devRef .tc main_arg7)) slices_S192x64_S64x64_0_0 := by
    show StableHlo.after hostOps0_2 (W2 m ρ c) (Proc.devRef .tc main_v8) = _
    generalize W2 m ρ c = V
    rw [hostOps0_2]
    after_results
  show W5 m ρ c (Proc.devRef .tc main_v8) (ix2 k j) = _
  rw [h5, h4, h3, h2, h1]
  show extractStridedSlice S64x64 ![0, 0] (m ((c : Thread nD τ).loc main_arg7)) slices_S192x64_S64x64_0_0 (ix2 k j) = _
  generalize m ((c : Thread nD τ).loc main_arg7) = A
  -- Entry (k, j) of the slice is entry (0 + k, 0 + j) of the matrix.
  exact extractStridedSlice_apply ![0, 0] A slices_S192x64_S64x64_0_0 (ix2 k j) (ix2 (Cert.Spec.lo192 k) j) (fun a => match a with
    | ⟨0, _⟩ => by show k.val = 0 + k.val; omega
    | ⟨1, _⟩ => by show j.val = 0 + j.val; omega)

theorem V5_arg8 (c : Dev nD) : V5 m ρ c main_arg8 = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

end Cert.KernelIdeal.Host

end
-- ==== Proof.Region0.lean ====
/-
  The first region, read as values: what its output array holds after its 200 grid points.

  Point t of the grid takes rows 8000 t … 8000 t + 7999 of the gathered rows (64 columns) and of the edge rows (32 columns),
  and the whole of the four small arrays (the two blocks of the first weight matrix, the bias, the lower block of the
  second weight matrix).  Its body is three matrix products and one bias: block row r of the output is
  sum over h of ((sum over k of a (r, k) * wa (k, h) + sum over k of b (r, k) * wb (k, h)) + bias h) * w2b (h, j),
  which reads only row r of the two row blocks.  So the block that point t writes back is rows 8000 t … of ONE
  function of the whole input arrays, the 200 blocks tile the 1,600,000 rows, and the output array ends holding that
  function everywhere.  On the extended reals a change of float format is the identity, so the roundings to bf16 in
  front of each product do not show.
-/
import proofs.«428547_j10393820857011_3_alg».proof.Proof.Gen.KernelIdeal.Frame
import proofs.«428547_j10393820857011_3_alg».proof.Proof.LibPlainAny
import proofs.«428547_j10393820857011_3_alg».proof.Proof.LibLayout2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-- Edge e's 64 products, from the whole input arrays: the hidden row of edge e against column j of w2b. -/
def msgRow (a : S1600000x64.Idx → EReal) (b : S1600000x32.Idx → EReal) (wa : S64x128.Idx → EReal)
    (wb : S32x128.Idx → EReal) (bias : S128.Idx → EReal) (w2b : S128x64.Idx → EReal) (e : Fin 1600000) (j : Fin 64) : EReal :=
  ∑ h : Fin 128, ((∑ k : Fin 64, a (ix2 e k) * wa (ix2 k h) + ∑ k : Fin 32, b (ix2 e k) * wb (ix2 k h)) + bias (ix1 h))
    * w2b (ix2 h j)

/-- The first product of the body, at (r, h): row r of the gathered block against column h of the upper block of the
    first weights. -/
theorem prodA_apply {φ₁ φ₂ : FTy} (W : FVec Ideal S8000x64 φ₁) (X : FVec Ideal S64x128 φ₂) (r : Fin 8000) (h : Fin 128) :
    matmul dot_S8000x64_S64x128_S8000x128_1_0_0_1_n_n none W X (constant (F := Ideal) S8000x128 .f32 0x00000000#32) (ix2 r h)
      = ∑ k : Fin 64, (W (ix2 r k) : EReal) * (X (ix2 k h) : EReal) :=
  Cert.LibPlainAny.matmul_plain_zero_any 8000 64 128 W X r h

/-- The second product, at (r, h): row r of the edge block against column h of the lower block of the first weights. -/
theorem prodB_apply {φ₁ φ₂ : FTy} (W : FVec Ideal S8000x32 φ₁) (X : FVec Ideal S32x128 φ₂) (r : Fin 8000) (h : Fin 128) :
    matmul dot_S8000x32_S32x128_S8000x128_1_0_0_1_n_n none W X (constant (F := Ideal) S8000x128 .f32 0x00000000#32) (ix2 r h)
      = ∑ k : Fin 32, (W (ix2 r k) : EReal) * (X (ix2 k h) : EReal) :=
  Cert.LibPlainAny.matmul_plain_zero_any 8000 32 128 W X r h

/-- The third product, at (r, j): row r of the hidden block against column j of the lower block of the second weights. -/
theorem prodC_apply {φ₁ φ₂ : FTy} (W : FVec Ideal S8000x128 φ₁) (X : FVec Ideal S128x64 φ₂) (r : Fin 8000) (j : Fin 64) :
    matmul dot_S8000x128_S128x64_S8000x64_1_0_0_1_n_n none W X (constant (F := Ideal) S8000x64 .f32 0x00000000#32) (ix2 r j)
      = ∑ h : Fin 128, (W (ix2 r h) : EReal) * (X (ix2 h j) : EReal) :=
  Cert.LibPlainAny.matmul_plain_zero_any 8000 128 64 W X r j

/-- The bias as the body adds it (one row of 128, repeated down the 8000 rows), at (r, h): entry h of the bias vector. -/
theorem biasRows_apply (v : FVec Ideal S128 .f32) (hc : S128.ShapeCasts S1x128) (hb : S1x128.Broadcasts S8000x128)
    (r : Fin 8000) (h : Fin 128) :
    broadcastTo S8000x128 (shapeCast S1x128 v hc) hb (ix2 r h) = v (ix1 h) := by
  rw [broadcastTo_1b_ab_apply, shapeCast_a_1a_apply]

/-- THE BODY'S RESULT at block entry (r, j), from its six loaded blocks: the hidden row r (two products and the bias)
    against column j of the last block.  The changes of float format are the identity on the extended reals. -/
theorem payload_apply (x0 : FVec Ideal S8000x64 .bf16) (x1 : FVec Ideal S8000x32 .f32) (x2 : FVec Ideal S64x128 .f32)
    (x3 : FVec Ideal S32x128 .f32) (x4 : FVec Ideal S128 .f32) (x5 : FVec Ideal S128x64 .f32) (r : Fin 8000) (j : Fin 64) :
    k0_pay1 (F := Ideal) x0 x1 x2 x3 x4 x5 (ix2 r j)
      = ∑ h : Fin 128, ((∑ k : Fin 64, (x0 (ix2 r k) : EReal) * x2 (ix2 k h) + ∑ k : Fin 32, (x1 (ix2 r k) : EReal) * x3 (ix2 k h)) + x4 (ix1 h))
          * x5 (ix2 h j) := by
  unfold k0_pay1
  rw [prodC_apply]
  refine Finset.sum_congr rfl fun h _ => ?_
  rw [truncf_apply, truncf_apply, shapeCast_self, addf_apply, addf_apply, prodA_apply, prodB_apply, biasRows_apply]
  simp only [truncf_apply, shapeCast_self]

variable (V : (c : Dev nD) → (b : Ref sig .tc) → Buf (Elt Ideal) ((c : Thread nD τ).loc b))

/-- The whole output array as one function of the six input arrays: row e, column j holds `msgRow` there. -/
def msgArr (c : Dev nD) : S1600000x64.Idx → Elt Ideal .f32 := fun i =>
  msgRow (V c main_v5) (V c main_arg2) (V c main_v6) (V c main_v7) (V c main_arg6) (V c main_v9)
    ⟨(i 0).val, idx2_lt0 i⟩ ⟨(i 1).val, idx2_lt1 i⟩

theorem zeros2 : (![0, 0] : Fin 2 → Nat) = fun _ => 0 := funext fun a => by fin_cases a <;> rfl
theorem zeros1 : (![0] : Fin 1 → Nat) = fun _ => 0 := funext fun a => by fin_cases a; rfl

/-- The block indices at grid point t, decided over the 200 points: the two row windows and the output take block row t,
    column block 0; the four small windows take their one block. -/
theorem blockIndex_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 200 := lt_of_lt_of_eq t.isLt N_0

/-- Row r of point t's block is row 8000 t + r of the array. -/
theorem row_lt (t : Fin cfg0.N) (r : Fin 8000) : t.val * 8000 + r.val < 1600000 := by
  have := point_lt t; have := r.isLt; omega

/-- The gathered rows' block at point t, entry (r, k): the array's entry (8000 t + r, k). -/
theorem gathered_blk (c : Dev nD) (t : Fin cfg0.N) (r : Fin 8000) (k : Fin 64) :
    iblk0 V c 0 t (ix2 r k) = V c main_v5 (ix2 ⟨t.val * 8000 + r.val, row_lt t r⟩ k) := by
  obtain ⟨e00, e01, -⟩ := blockIndex_facts t
  show V c main_v5 (((cfg0.win 0).blk t).view.emb (ix2 r k)) = _
  congr 1
  funext a; apply Fin.ext
  match a with
  | ⟨0, _⟩ => show win0_0.index t (0 : Fin 2) * 8000 + 1 * r.val = t.val * 8000 + r.val; omega
  | ⟨1, _⟩ => show win0_0.index t (1 : Fin 2) * 64 + 1 * k.val = k.val; omega

/-- The edge rows' block at point t, entry (r, k): the array's entry (8000 t + r, k). -/
theorem edge_blk (c : Dev nD) (t : Fin cfg0.N) (r : Fin 8000) (k : Fin 32) :
    iblk0 V c 1 t (ix2 r k) = V c main_arg2 (ix2 ⟨t.val * 8000 + r.val, row_lt t r⟩ k) := by
  obtain ⟨-, -, e10, e11, -⟩ := blockIndex_facts t
  show V c main_arg2 (((cfg0.win 1).blk t).view.emb (ix2 r k)) = _
  congr 1
  funext a; apply Fin.ext
  match a with
  | ⟨0, _⟩ => show win0_1.index t (0 : Fin 2) * 8000 + 1 * r.val = t.val * 8000 + r.val; omega
  | ⟨1, _⟩ => show win0_1.index t (1 : Fin 2) * 32 + 1 * k.val = k.val; omega

/-- The upper block of the first weights is the window's one block: entry (k, h) of the array. -/
theorem w1a_blk (c : Dev nD) (t : Fin cfg0.N) (k : Fin 64) (h : Fin 128) :
    iblk0 V c 2 t (ix2 k h) = V c main_v6 (ix2 k h) := by
  obtain ⟨-, -, -, -, e20, e21, -⟩ := blockIndex_facts t
  show V c main_v6 (((cfg0.win 2).blk t).view.emb (ix2 k h)) = _
  congr 1
  funext a; apply Fin.ext
  match a with
  | ⟨0, _⟩ => show win0_2.index t (0 : Fin 2) * 64 + 1 * k.val = k.val; omega
  | ⟨1, _⟩ => show win0_2.index t (1 : Fin 2) * 128 + 1 * h.val = h.val; omega

/-- The lower block of the first weights likewise. -/
theorem w1b_blk (c : Dev nD) (t : Fin cfg0.N) (k : Fin 32) (h : Fin 128) :
    iblk0 V c 3 t (ix2 k h) = V c main_v7 (ix2 k h) := by
  obtain ⟨-, -, -, -, -, -, e30, e31, -⟩ := blockIndex_facts t
  show V c main_v7 (((cfg0.win 3).blk t).view.emb (ix2 k h)) = _
  congr 1
  funext a; apply Fin.ext
  match a with
  | ⟨0, _⟩ => show win0_3.index t (0 : Fin 2) * 32 + 1 * k.val = k.val; omega
  | ⟨1, _⟩ => show win0_3.index t (1 : Fin 2) * 128 + 1 * h.val = h.val; omega

/-- The bias likewise. -/
theorem bias_blk (c : Dev nD) (t : Fin cfg0.N) (h : Fin 128) :
    iblk0 V c 4 t (ix1 h) = V c main_arg6 (ix1 h) := by
  obtain ⟨-, -, -, -, -, -, -, -, e40, -⟩ := blockIndex_facts t
  show V c main_arg6 (((cfg0.win 4).blk t).view.emb (ix1 h)) = _
  congr 1
  funext a; apply Fin.ext
  match a with
  | ⟨0, _⟩ => show win0_4.index t (0 : Fin 1) * 128 + 1 * h.val = h.val; omega

/-- The lower block of the second weights likewise. -/
theorem w2b_blk (c : Dev nD) (t : Fin cfg0.N) (h : Fin 128) (j : Fin 64) :
    iblk0 V c 5 t (ix2 h j) = V c main_v9 (ix2 h j) := by
  obtain ⟨-, -, -, -, -, -, -, -, -, e50, e51, -⟩ := blockIndex_facts t
  show V c main_v9 (((cfg0.win 5).blk t).view.emb (ix2 h j)) = _
  congr 1
  funext a; apply Fin.ext
  match a with
  | ⟨0, _⟩ => show win0_5.index t (0 : Fin 2) * 128 + 1 * h.val = h.val; omega
  | ⟨1, _⟩ => show win0_5.index t (1 : Fin 2) * 64 + 1 * j.val = j.val; omega

/-- Entry (r, j) of the output's block at point t is entry (8000 t + r, j) of the array. -/
theorem out_blk_emb (t : Fin cfg0.N) (r : Fin 8000) (j : Fin 64) :
    ((cfg0.win 6).blk t).view.emb (ix2 r j) = ix2 ⟨t.val * 8000 + r.val, row_lt t r⟩ j := by
  obtain ⟨-, -, -, -, -, -, -, -, -, -, -, e60, e61⟩ := blockIndex_facts t
  funext a; apply Fin.ext
  match a with
  | ⟨0, _⟩ => show win0_6.index t (0 : Fin 2) * 8000 + 1 * r.val = t.val * 8000 + r.val; omega
  | ⟨1, _⟩ => show win0_6.index t (1 : Fin 2) * 64 + 1 * j.val = j.val; omega

/-- WHAT POINT t WRITES BACK: rows 8000 t … 8000 t + 7999 of `msgArr`. -/
theorem flushed_rows (c : Dev nD) (t : Fin cfg0.N) :
    (dat0 (F := Ideal) V c).flushed 6 t = ((cfg0.win 6).blk t).view.read (Elt Ideal) (msgArr V c) := by
  show (cfg0.win 6).cut (grid0.coords t) ((dat0 (F := Ideal) V c).after 6 t) = _
  rw [after0_6]
  unfold out0_6
  rw [View.canon_unit_zero zeros2]
  simp only [View.ld_unit_zero (S := S8000x64) zeros2, View.ld_unit_zero (S := S8000x32) zeros2,
    View.ld_unit_zero (S := S64x128) zeros2, View.ld_unit_zero (S := S32x128) zeros2,
    View.ld_unit_zero (S := S128) zeros1, View.ld_unit_zero (S := S128x64) zeros2]
  refine funext fun (y : S8000x64.Idx) => ?_
  obtain ⟨r, j, rfl⟩ : ∃ (r : Fin 8000) (j : Fin 64), y = ix2 r j := ⟨y 0, y 1, eq_ix2 y⟩
  refine (payload_apply (iblk0 V c 0 t) (iblk0 V c 1 t) (iblk0 V c 2 t) (iblk0 V c 3 t) (iblk0 V c 4 t) (iblk0 V c 5 t) r j).trans ?_
  show _ = msgArr V c (((cfg0.win 6).blk t).view.emb (ix2 r j))
  rw [out_blk_emb]
  simp only [gathered_blk, edge_blk, w1a_blk, w1b_blk, bias_blk, w2b_blk]
  rfl

/-- An index of the output array is in point t's block iff each coordinate is in the block's range on its axis. -/
theorem mem_rowBlock (t : Fin cfg0.N) (i : S1600000x64.Idx) :
    i ∈ ((cfg0.win 6).blk t).view.set ↔ ∀ a : Fin 2, win0_6.index t a * S8000x64.size a ≤ (i a).val ∧ (i a).val < win0_6.index t a * S8000x64.size a + S8000x64.size a := by
  show i ∈ ((View.whole main_v10).slice (win0_6.rect t)).set ↔ _
  rw [View.set_slice_whole, Rect.mem_set_unit]
  exact Iff.rfl

/-- THE 200 BLOCKS TILE THE ROWS: row e is in the block of point e / 8000, and every point writes back. -/
theorem rows_covered (i : S1600000x64.Idx) :
    ∃ t : Fin cfg0.N, (cfg0.win 6).flush t = true ∧ i ∈ ((cfg0.win 6).blk t).view.set := by
  have hi0 : (i 0).val < 1600000 := (i 0).isLt
  have hi1 : (i 1).val < 64 := (i 1).isLt
  have ht : (i 0).val / 8000 < cfg0.N := lt_of_lt_of_eq (by omega : (i 0).val / 8000 < 200) N_0.symm
  refine ⟨⟨(i 0).val / 8000, ht⟩, flush0_6 _, ?_⟩
  rw [mem_rowBlock]
  obtain ⟨-, -, -, -, -, -, -, -, -, -, -, e60, e61⟩ := blockIndex_facts ⟨(i 0).val / 8000, ht⟩
  intro a
  match a with
  | ⟨0, _⟩ =>
    show win0_6.index ⟨(i 0).val / 8000, ht⟩ (0 : Fin 2) * 8000 ≤ (i 0).val
      ∧ (i 0).val < win0_6.index ⟨(i 0).val / 8000, ht⟩ (0 : Fin 2) * 8000 + 8000
    rw [e60]
    show (i 0).val / 8000 * 8000 ≤ (i 0).val ∧ (i 0).val < (i 0).val / 8000 * 8000 + 8000
    omega
  | ⟨1, _⟩ =>
    show win0_6.index ⟨(i 0).val / 8000, ht⟩ (1 : Fin 2) * 64 ≤ (i 1).val
      ∧ (i 1).val < win0_6.index ⟨(i 0).val / 8000, ht⟩ (1 : Fin 2) * 64 + 64
    omega

/-- THE FIRST REGION'S OUTPUT ARRAY after its run is `msgArr`. -/
theorem out_array (c : Dev nD) : (dat0 (F := Ideal) V c).arrAt 6 cfg0.N = msgArr V c :=
  (dat0 (F := Ideal) V c).arrAt_eq_of_cover 6 (msgArr V c) (fun t _ => flushed_rows V c t) rows_covered

/-- THE FIRST REGION'S OUTPUT ARRAY after its run, entry (e, j): `msgRow` of the six input arrays as the region finds
    them. -/
theorem region0_value (c : Dev nD) (e : Fin 1600000) (j : Fin 64) :
    (dat0 (F := Ideal) V c).arrAt 6 cfg0.N (ix2 e j)
      = msgRow (V c main_v5) (V c main_arg2) (V c main_v6) (V c main_v7) (V c main_arg6) (V c main_v9) e j := by
  rw [out_array]
  rfl

end Cert.KernelIdeal.Region0

end
-- ==== Proof.Region1.lean ====
/-
  The second region, read as values: what its output array holds after its 20 grid points.

  Point t takes rows 5000 t … 5000 t + 4999 of the node rows and of the collected rows (64 columns each) and the whole of
  the upper block of the second weight matrix and of its bias.  Its body is one matrix product and two additions: block
  row r of the output is (sum over k of x (r, k) * w2a (k, j) + agg (r, j)) + b2 j, which reads only row r of the two
  row blocks.  So every written-back block is rows 5000 t … of ONE function of the whole input arrays, the 20 blocks
  tile the 100,000 rows, and the output array ends holding that function everywhere.
-/
import proofs.«428547_j10393820857011_3_alg».proof.Proof.Gen.KernelIdeal.Frame
import proofs.«428547_j10393820857011_3_alg».proof.Proof.LibPlainAny
import proofs.«428547_j10393820857011_3_alg».proof.Proof.LibLayout2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-- Node n's output row, from the whole input arrays. -/
def outRow (x : S100000x64.Idx → EReal) (agg : S100000x64.Idx → EReal) (w2a : S64x64.Idx → EReal) (b2 : S64.Idx → EReal)
    (n : Fin 100000) (j : Fin 64) : EReal :=
  (∑ k : Fin 64, x (ix2 n k) * w2a (ix2 k j) + agg (ix2 n j)) + b2 (ix1 j)

/-- The region's matrix product is the plain one: 5000 x 64 by 64 x 64, no batch axis. -/
theorem dot_plain : dot_S5000x64_S64x64_S5000x64_1_0_0_1_n_n = DotDims.plain 5000 64 64 := rfl

/-- THE BODY AT ONE ENTRY of its block: row r, column j of what it stores is the product row of the node block against
    the weight block, plus the collected block's entry, plus the bias entry.  The changes of float format and the casts
    onto the same shape are the identity; the bias is cast to one row and that row repeated down the block. -/
theorem body_at (x0 : Vec Ideal S5000x64 .f32) (x2 : Vec Ideal S64x64 .f32) (x6 : Vec Ideal S5000x64 .f32)
    (x9 : Vec Ideal S64 .f32) (r : Fin 5000) (j : Fin 64) :
    k1_pay1 (F := Ideal) x0 x2 x6 x9 (ix2 r j)
      = (∑ k : Fin 64, x0 (ix2 r k) * x2 (ix2 k j) + x6 (ix2 r j)) + x9 (ix1 j) := by
  unfold k1_pay1
  rw [addf_apply, addf_apply, dot_plain, Cert.LibPlainAny.matmul_plain_zero_any, shapeCast_self, shapeCast_self,
    broadcastTo_1b_ab_apply, shapeCast_a_1a_apply]
  rfl

/-- The whole output array as one function of the four input arrays: entry i is `outRow` at i's row and column. -/
def outArray (x : S100000x64.Idx → EReal) (agg : S100000x64.Idx → EReal) (w2a : S64x64.Idx → EReal) (b2 : S64.Idx → EReal) :
    S100000x64.Idx → EReal :=
  fun i => outRow x agg w2a b2 ⟨(i 0).val, idx2_lt0 i⟩ ⟨(i 1).val, idx2_lt1 i⟩

theorem zeros2 : (![0, 0] : Fin 2 → Nat) = fun _ => 0 := funext fun a => by fin_cases a <;> rfl
theorem zeros1 : (![0] : Fin 1 → Nat) = fun _ => 0 := funext fun a => by fin_cases a; rfl

/-- The block index of each window at each of the 20 points: the three row windows are at block (t, 0), the weight
    matrix and the bias at block 0. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- A point's number is below 20. -/
theorem point_lt (t : Fin cfg1.N) : t.val < 20 := by
  have h := t.isLt
  have hN : cfg1.N = 20 := N_1
  omega

/-- The output block's entry (r, j) at point t sits at the array's entry (5000 t + r, j). -/
theorem out_place (t : Fin cfg1.N) (r : Fin 5000) (j : Fin 64) (n : Fin 100000) (hn : n.val = 5000 * t.val + r.val) :
    (((cfg1.win 4).blk t).view.emb (ix2 r j) : S100000x64.Idx) = ix2 n j := by
  obtain ⟨-, -, -, -, -, -, -, e0, e1⟩ := block_index t
  funext a; apply Fin.ext
  match a with
  | ⟨0, _⟩ => show win1_4.index t (0 : Fin 2) * 5000 + 1 * r.val = n.val; rw [e0, hn]; omega
  | ⟨1, _⟩ => show win1_4.index t (1 : Fin 2) * 64 + 1 * j.val = j.val; rw [e1]; omega

/-- An index of the output array is in point t's block iff each coordinate is in the block's range on its axis. -/
theorem mem_block (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v14).slice (win1_4.rect t)).set ↔ _
  rw [View.set_slice_whole, Rect.mem_set_unit]
  exact Iff.rfl

/-- THE 20 BLOCKS TILE THE ROWS: row n of the output array is in the block of point n / 5000, which is written back. -/
theorem rows_covered (i : S100000x64.Idx) :
    ∃ t : Fin cfg1.N, (cfg1.win 4).flush t = true ∧ i ∈ ((cfg1.win 4).blk t).view.set := by
  have hi0 : (i 0).val < 100000 := idx2_lt0 i
  have hi1 : (i 1).val < 64 := idx2_lt1 i
  have hN : cfg1.N = 20 := N_1
  have hq : (i 0).val / 5000 < cfg1.N := by rw [hN]; omega
  refine ⟨⟨(i 0).val / 5000, hq⟩, flush1_4 _, ?_⟩
  rw [mem_block]
  obtain ⟨-, -, -, -, -, -, -, e0, e1⟩ := block_index ⟨(i 0).val / 5000, hq⟩
  intro a
  match a with
  | ⟨0, _⟩ =>
    show win1_4.index ⟨(i 0).val / 5000, hq⟩ (0 : Fin 2) * 5000 ≤ (i 0).val
      ∧ (i 0).val < win1_4.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win1_4.index ⟨(i 0).val / 5000, hq⟩ (1 : Fin 2) * 64 ≤ (i 1).val
      ∧ (i 1).val < win1_4.index ⟨(i 0).val / 5000, hq⟩ (1 : Fin 2) * 64 + 64
    rw [e1]
    omega

variable (V : (c : Dev nD) → (b : Ref sig .tc) → Buf (Elt Ideal) ((c : Thread nD τ).loc b))

/-- The node-row window's block at point t is rows 5000 t … 5000 t + 4999 of the node rows. -/
theorem x_block (c : Dev nD) (t : Fin cfg1.N) (r : Fin 5000) (k : Fin 64) (n : Fin 100000) (hn : n.val = 5000 * t.val + r.val) :
    (iblk1 V c 0 t : Vec Ideal S5000x64 .f32) (ix2 r k) = (V c main_arg0 : S100000x64.Idx → EReal) (ix2 n k) := by
  obtain ⟨e0, e1, -⟩ := block_index t
  unfold iblk1
  rw [View.read_apply]
  show V c main_arg0 _ = V c main_arg0 _
  congr 1
  funext a; apply Fin.ext
  match a with
  | ⟨0, _⟩ => show win1_0.index t (0 : Fin 2) * 5000 + 1 * r.val = n.val; rw [e0, hn]; omega
  | ⟨1, _⟩ => show win1_0.index t (1 : Fin 2) * 64 + 1 * k.val = k.val; rw [e1]; omega

/-- The collected-row window's block at point t is rows 5000 t … 5000 t + 4999 of the collected rows. -/
theorem agg_block (c : Dev nD) (t : Fin cfg1.N) (r : Fin 5000) (k : Fin 64) (n : Fin 100000) (hn : n.val = 5000 * t.val + r.val) :
    (iblk1 V c 1 t : Vec Ideal S5000x64 .f32) (ix2 r k) = (V c main_v13 : S100000x64.Idx → EReal) (ix2 n k) := by
  obtain ⟨-, -, e0, e1, -⟩ := block_index t
  unfold iblk1
  rw [View.read_apply]
  show V c main_v13 _ = V c main_v13 _
  congr 1
  funext a; apply Fin.ext
  match a with
  | ⟨0, _⟩ => show win1_1.index t (0 : Fin 2) * 5000 + 1 * r.val = n.val; rw [e0, hn]; omega
  | ⟨1, _⟩ => show win1_1.index t (1 : Fin 2) * 64 + 1 * k.val = k.val; rw [e1]; omega

/-- The weight window's block at every point is the whole weight matrix. -/
theorem w2a_block (c : Dev nD) (t : Fin cfg1.N) (a : Fin 64) (b : Fin 64) :
    (iblk1 V c 2 t : Vec Ideal S64x64 .f32) (ix2 a b) = (V c main_v8 : S64x64.Idx → EReal) (ix2 a b) := by
  obtain ⟨-, -, -, -, e0, e1, -⟩ := block_index t
  unfold iblk1
  rw [View.read_apply]
  show V c main_v8 _ = V c main_v8 _
  congr 1
  funext d; apply Fin.ext
  match d with
  | ⟨0, _⟩ => show win1_2.index t (0 : Fin 2) * 64 + 1 * a.val = a.val; rw [e0]; omega
  | ⟨1, _⟩ => show win1_2.index t (1 : Fin 2) * 64 + 1 * b.val = b.val; rw [e1]; omega

/-- The bias window's block at every point is the whole bias. -/
theorem b2_block (c : Dev nD) (t : Fin cfg1.N) (b : Fin 64) :
    (iblk1 V c 3 t : Vec Ideal S64 .f32) (ix1 b) = (V c main_arg8 : S64.Idx → EReal) (ix1 b) := by
  obtain ⟨-, -, -, -, -, -, e0, -⟩ := block_index t
  unfold iblk1
  rw [View.read_apply]
  show V c main_arg8 _ = V c main_arg8 _
  congr 1
  funext d; apply Fin.ext
  match d with
  | ⟨0, _⟩ => show win1_3.index t (0 : Fin 1) * 64 + 1 * b.val = b.val; rw [e0]; omega

/-- WHAT POINT t WRITES BACK is block t of `outArray` of the four input arrays as the region finds them: the body's one
    store covers its buffer, its entry (r, j) reads row r of the two row blocks, which are rows 5000 t + r of the arrays,
    and the output block sits at the same rows. -/
theorem written_back (c : Dev nD) (t : Fin cfg1.N) :
    (dat1 (F := Ideal) V c).flushed 4 t
      = ((cfg1.win 4).blk t).view.read (Elt Ideal) (outArray (V c main_arg0) (V c main_v13) (V c main_v8) (V c main_arg8)) := by
  show (cfg1.win 4).cut (grid1.coords t) ((dat1 V c).after 4 t) = _
  rw [after1_4]
  unfold out1_4
  rw [View.canon_unit_zero zeros2]
  simp only [View.ld_unit_zero (S := S5000x64) zeros2, View.ld_unit_zero (S := S64x64) zeros2, View.ld_unit_zero (S := S64) zeros1]
  funext y
  obtain ⟨r, j, rfl⟩ : ∃ (r : Fin 5000) (j : Fin 64), y = ix2 r j := ⟨y 0, y 1, eq_ix2 y⟩
  have ht := point_lt t
  have hn : (⟨5000 * t.val + r.val, by omega⟩ : Fin 100000).val = 5000 * t.val + r.val := rfl
  show k1_pay1 (F := Ideal) (iblk1 V c 0 t) (iblk1 V c 2 t) (iblk1 V c 1 t) (iblk1 V c 3 t) (ix2 r j)
    = outArray (V c main_arg0) (V c main_v13) (V c main_v8) (V c main_arg8) (((cfg1.win 4).blk t).view.emb (ix2 r j))
  rw [out_place t r j _ hn, body_at]
  show _ = outRow (V c main_arg0) (V c main_v13) (V c main_v8) (V c main_arg8) _ j
  unfold outRow
  rw [agg_block V c t r j _ hn, b2_block V c t j]
  congr 2
  refine Finset.sum_congr rfl fun k _ => ?_
  rw [x_block V c t r k _ hn, w2a_block V c t k j]

/-- THE SECOND REGION'S OUTPUT ARRAY after its run, entry (n, j): `outRow` of the four input arrays as the region
    finds them. -/
theorem region1_value (c : Dev nD) (n : Fin 100000) (j : Fin 64) :
    (dat1 (F := Ideal) V c).arrAt 4 cfg1.N (ix2 n j)
      = outRow (V c main_arg0) (V c main_v13) (V c main_v8) (V c main_arg8) n j := by
  have h := (dat1 (F := Ideal) V c).arrAt_eq_of_cover 4
    (outArray (V c main_arg0) (V c main_v13) (V c main_v8) (V c main_arg8)) (fun t _ => written_back V c t) rows_covered
  exact congrFun h (ix2 n j)

end Cert.KernelIdeal.Region1

end
-- ==== Proof.KernelValue.lean ====
/-
  The kernel program's result, entry by entry, as the specification's "multiply first, collect afterwards".

  At the end of the run the result buffer holds what the second region's write-backs leave.  The second region's value
  is the node's own row against the upper block of the second weight matrix, plus what the node collected, plus the
  bias; what the node collected is the sum, over the edges whose target it is, of the first region's output rows; and an
  edge's output row is its hidden row against the lower block of the second weight matrix, the hidden row being the
  gathered row against the upper block of the first weight matrix plus the edge row against its lower block plus the
  bias.  Substituting one into the other, with every array read back to the arguments, gives the specification's term.
-/
import proofs.«428547_j10393820857011_3_alg».proof.Proof.KernelHost
import proofs.«428547_j10393820857011_3_alg».proof.Proof.KernelMid
import proofs.«428547_j10393820857011_3_alg».proof.Proof.Region0
import proofs.«428547_j10393820857011_3_alg».proof.Proof.Region1
import proofs.«428547_j10393820857011_3_alg».proof.Proof.Spec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen

variable (m : (ℓ : Loc nD τ sig) → Buf (Elt Ideal) ℓ) (ρ : Dev nD → PrngReg)

/-- The result buffer at the last boundary, as an array of extended reals. -/
def resultK (c : Dev nD) : S100000x64.Idx → EReal := W6 m ρ c (Proc.devRef .tc main_v14)

/-- The result buffer at the last boundary is what the second region's write-backs leave in its output array. -/
theorem resultK_eq (c : Dev nD) : resultK m ρ c = (dat1 (F := Ideal) (V5 m ρ) c).arrAt 4 cfg1.N :=
  W6_arr m ρ c 4

/-- THE KERNEL PROGRAM'S RESULT at entry (n, j), when every source index is in range: multiply first, collect
    afterwards, over the arguments read entry by entry. -/
theorem kernel_value (c : Dev nD)
    (hrow : ∀ e : Fin 1600000, 0 ≤ (m ((c : Thread nD τ).loc main_arg1) (ix2 (0 : Fin 2) e)).toInt
      ∧ (m ((c : Thread nD τ).loc main_arg1) (ix2 (0 : Fin 2) e)).toInt < 100000)
    (n : Fin 100000) (j : Fin 64) :
    resultK m ρ c (ix2 n j)
      = Cert.Spec.outK (R := EReal) (fun n k => m ((c : Thread nD τ).loc main_arg0) (ix2 n k))
          (fun e k => xrK (m ((c : Thread nD τ).loc main_arg0)) (m ((c : Thread nD τ).loc main_arg1)) (ix2 e k))
          (fun e k => m ((c : Thread nD τ).loc main_arg2) (ix2 e k))
          (fun k h => m ((c : Thread nD τ).loc main_arg5) (ix2 k h))
          (fun h => m ((c : Thread nD τ).loc main_arg6) (ix1 h))
          (fun k j => m ((c : Thread nD τ).loc main_arg7) (ix2 k j))
          (fun j => m ((c : Thread nD τ).loc main_arg8) (ix1 j))
          (fun (e : Fin 1600000) (n : Fin 100000) =>
            (colK (m ((c : Thread nD τ).loc main_arg1)) (ix2 e (0 : Fin 1))).toInt = (n.val : Int)) n j := by
  have a1 : resultK m ρ c (ix2 n j) = (dat1 (F := Ideal) (V5 m ρ) c).arrAt 4 cfg1.N (ix2 n j) :=
    congrFun (resultK_eq m ρ c) (ix2 n j)
  refine a1.trans ?_
  refine (Cert.KernelIdeal.Region1.region1_value (V5 m ρ) c n j).trans ?_
  unfold Cert.KernelIdeal.Region1.outRow Cert.Spec.outK
  rw [V5_arg0 m ρ c, V5_arg8 m ρ c, V5_v13 m ρ c n j]
  simp only [V5_v8 m ρ c]
  refine congrArg (fun z => z + _) ?_
  refine congrArg (fun z => _ + z) ?_
  refine Finset.sum_congr rfl fun e _ => ?_
  refine (msgArrK_eq m ρ c (ix2 e j)).trans ?_
  refine (Cert.KernelIdeal.Region0.region0_value (V3 m ρ) c e j).trans ?_
  unfold Cert.KernelIdeal.Region0.msgRow Cert.Spec.msg64 Cert.Spec.hiddenK
  rw [V3_v5 m ρ c hrow, V3_arg2 m ρ c, V3_arg6 m ρ c]
  simp only [V3_v6 m ρ c, V3_v7 m ρ c, V3_v9 m ρ c]

end Cert.KernelIdeal.Host

end
-- ==== Proof.RefValue.lean ====
/-
  The reference program, read as values: its result at entry (n, j) is the second layer over the joined row, with the
  collected hidden rows inside.

  Its operations, one at a time: the source indices (row 0 of the edge-index array, a negative one wrapped once) gather the
  node rows; each gathered row is joined with the edge's own row (96 entries) and multiplied by the first weight matrix,
  the bias added; the hidden rows are added into a zero array at the rows named by the target indices (row 1); each
  node's own row is joined with what it collected (192 entries) and multiplied by the second weight matrix, the bias
  added.  A joined row read below its 64th entry is the left piece, at or above it the right piece 64 entries earlier.
-/
import proofs.«428547_j10393820857011_3_alg».proof.Proof.Gen.ReferenceIdeal.Read
import proofs.«428547_j10393820857011_3_alg».proof.Proof.LibRowScatter
import proofs.«428547_j10393820857011_3_alg».proof.Proof.LibLayout2
import proofs.«428547_j10393820857011_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.Hand

open Cert.ReferenceIdeal Cert.ReferenceIdeal.Gen

/-- Row 0 of the edge-index array as a vector: every edge's source node. -/
def rowR (EI : IVec S2x1600000 32) : IVec S1600000 32 :=
  shapeCast S1600000 (extractStridedSlice S1x1600000 ![0, 0] EI slices_S2x1600000_S1x1600000_0_0) shapeCasts_S1x1600000_S1600000

/-- The source indices as the gather takes them: a negative one wrapped once by adding 100000, as one column. -/
def rowIdxR (EI : IVec S2x1600000 32) : IVec S1600000x1 32 :=
  broadcastInDim S1600000x1 ![0] bcast_S1600000_S1600000x1_0
    (select (cmpi .slt (rowR EI) (broadcastInDim S1600000 ![] bcast_S_S1600000 (constantI S_ 32 0#32)))
      (addi (rowR EI) (broadcastInDim S1600000 ![] bcast_S_S1600000 (constantI S_ 32 100000#32))) (rowR EI))

/-- The gathered rows: edge e's row is the node array's row at e's (wrapped, clamped) source index. -/
def xrR (X : S100000x64.Idx → EReal) (EI : IVec S2x1600000 32) : S1600000x64.Idx → EReal :=
  Host.gather gather_S100000x64_S1600000x1_S1600000x64_1_0_n_n_0_1_164 X (rowIdxR EI)

/-- Row 1 of the edge-index array as one column: every edge's target node. -/
def colR (EI : IVec S2x1600000 32) : IVec S1600000x1 32 :=
  broadcastInDim S1600000x1 ![0] bcast_S1600000_S1600000x1_0
    (shapeCast S1600000 (extractStridedSlice S1x1600000 ![1, 0] EI slices_S2x1600000_S1x1600000_1_0) shapeCasts_S1x1600000_S1600000)

namespace RefValue

/-- The second bias, broadcast to one row and then over the rows, read at (n, j). -/
theorem v22_at (B2 : S64.Idx → EReal) (n : Fin 100000) (j : Fin 64) :
    Cert.ReferenceIdeal.Read.val_main_v22 (F := Ideal) B2 (ix2 n j) = B2 (ix1 j) := by
  rw [Read.val_main_v22_apply, Read.val_main_v21_apply]
  congr 1
  exact funext fun a => Fin.ext (by match a with | ⟨0, _⟩ => rfl)

/-- The first bias, broadcast to one row and then over the rows, read at (e, h). -/
theorem v14_at (B1 : S128.Idx → EReal) (e : Fin 1600000) (h : Fin 128) :
    Cert.ReferenceIdeal.Read.val_main_v14 (F := Ideal) B1 (ix2 e h) = B1 (ix1 h) := by
  rw [Read.val_main_v14_apply, Read.val_main_v13_apply]
  congr 1
  exact funext fun a => Fin.ext (by match a with | ⟨0, _⟩ => rfl)

/-- The second product at (n, j): row n of the joined array against column j of the second weight matrix. -/
theorem v20_at (X : S100000x64.Idx → EReal) (EI : IVec S2x1600000 32) (EA : S1600000x32.Idx → EReal)
    (W1 : S96x128.Idx → EReal) (B1 : S128.Idx → EReal) (W2 : S192x64.Idx → EReal)
    (n : Fin 100000) (j : Fin 64) :
    Cert.ReferenceIdeal.Read.val_main_v20 (F := Ideal) X EI EA W1 B1 W2 (ix2 n j)
      = ∑ k : Fin 192, Cert.ReferenceIdeal.Read.val_main_v19 (F := Ideal) X EI EA W1 B1 (ix2 n k) * W2 (ix2 k j) := by
  rw [Read.val_main_v20_apply]
  refine Finset.sum_congr rfl fun k _ => ?_
  have el : Read.lidx_main_v20 (ix2 n j) k = ix2 n k :=
    funext fun a => Fin.ext (by match a with | ⟨0, _⟩ => rfl | ⟨1, _⟩ => rfl)
  have er : Read.ridx_main_v20 (ix2 n j) k = ix2 k j :=
    funext fun a => Fin.ext (by match a with | ⟨0, _⟩ => rfl | ⟨1, _⟩ => rfl)
  rw [el, er]

/-- The first product at (e, h): row e of the joined array against column h of the first weight matrix. -/
theorem v12_at (X : S100000x64.Idx → EReal) (EI : IVec S2x1600000 32) (EA : S1600000x32.Idx → EReal)
    (W1 : S96x128.Idx → EReal) (e : Fin 1600000) (h : Fin 128) :
    Cert.ReferenceIdeal.Read.val_main_v12 (F := Ideal) X EI EA W1 (ix2 e h)
      = ∑ k : Fin 96, Cert.ReferenceIdeal.Read.val_main_v11 (F := Ideal) X EI EA (ix2 e k) * W1 (ix2 k h) := by
  rw [Read.val_main_v12_apply]
  refine Finset.sum_congr rfl fun k _ => ?_
  have el : Read.lidx_main_v12 (ix2 e h) k = ix2 e k :=
    funext fun a => Fin.ext (by match a with | ⟨0, _⟩ => rfl | ⟨1, _⟩ => rfl)
  have er : Read.ridx_main_v12 (ix2 e h) k = ix2 k h :=
    funext fun a => Fin.ext (by match a with | ⟨0, _⟩ => rfl | ⟨1, _⟩ => rfl)
  rw [el, er]

/-- The 192-entry joined row at (n, k): below 64 the node's own row, from 64 on what the node collected. -/
theorem v19_at (X : S100000x64.Idx → EReal) (EI : IVec S2x1600000 32) (EA : S1600000x32.Idx → EReal)
    (W1 : S96x128.Idx → EReal) (B1 : S128.Idx → EReal) (n : Fin 100000) (k : Fin 192) :
    Cert.ReferenceIdeal.Read.val_main_v19 (F := Ideal) X EI EA W1 B1 (ix2 n k)
      = Cert.Spec.cat2 (fun n k => X (ix2 n k))
          (fun n h => Cert.ReferenceIdeal.Read.val_main_v18 (F := Ideal) X EI EA W1 B1 (ix2 n h)) n k := by
  unfold Read.val_main_v19 Cert.Spec.cat2
  generalize Read.val_main_v18 (F := Ideal) X EI EA W1 B1 = y
  by_cases hk : k.val < 64
  · rw [dif_pos hk]
    exact concatenate_pair_apply_left (1 : Fin 2) X y concatenates_S100000x64_S100000x128_S100000x192_d1
      (ix2 n k) rfl (ix2 n (⟨k.val, hk⟩ : Fin 64))
      (fun b => by match b with | ⟨0, _⟩ => rfl | ⟨1, _⟩ => rfl)
  · rw [dif_neg hk]
    exact concatenate_pair_apply_right (1 : Fin 2) X y concatenates_S100000x64_S100000x128_S100000x192_d1
      (ix2 n k) rfl rfl (ix2 n (⟨k.val - 64, by omega⟩ : Fin 128))
      (fun b hb => by match b, hb with | ⟨0, _⟩, _ => rfl | ⟨1, _⟩, hb => exact absurd rfl hb)
      (by show (k.val - 64) + 64 = k.val; omega)

/-- The 96-entry joined row at (e, k): below 64 the gathered row, from 64 on the edge's own row. -/
theorem v11_at (X : S100000x64.Idx → EReal) (EI : IVec S2x1600000 32) (EA : S1600000x32.Idx → EReal)
    (e : Fin 1600000) (k : Fin 96) :
    Cert.ReferenceIdeal.Read.val_main_v11 (F := Ideal) X EI EA (ix2 e k)
      = Cert.Spec.cat1 (fun e k => xrR X EI (ix2 e k)) (fun e k => EA (ix2 e k)) e k := by
  have hg : Read.val_main_v10 (F := Ideal) X EI = xrR X EI := rfl
  unfold Read.val_main_v11 Cert.Spec.cat1
  rw [hg]
  generalize xrR X EI = y
  by_cases hk : k.val < 64
  · rw [dif_pos hk]
    exact concatenate_pair_apply_left (1 : Fin 2) y EA concatenates_S1600000x64_S1600000x32_S1600000x96_d1
      (ix2 e k) rfl (ix2 e (⟨k.val, hk⟩ : Fin 64))
      (fun b => by match b with | ⟨0, _⟩ => rfl | ⟨1, _⟩ => rfl)
  · rw [dif_neg hk]
    exact concatenate_pair_apply_right (1 : Fin 2) y EA concatenates_S1600000x64_S1600000x32_S1600000x96_d1
      (ix2 e k) rfl rfl (ix2 e (⟨k.val - 64, by omega⟩ : Fin 32))
      (fun b hb => by match b, hb with | ⟨0, _⟩, _ => rfl | ⟨1, _⟩, hb => exact absurd rfl hb)
      (by show (k.val - 64) + 64 = k.val; omega)

/-- The collected rows at (n, h): the hidden entries (e, h) summed over the edges e landing on node n. -/
theorem v18_at (X : S100000x64.Idx → EReal) (EI : IVec S2x1600000 32) (EA : S1600000x32.Idx → EReal)
    (W1 : S96x128.Idx → EReal) (B1 : S128.Idx → EReal) (n : Fin 100000) (h : Fin 128) :
    Cert.ReferenceIdeal.Read.val_main_v18 (F := Ideal) X EI EA W1 B1 (ix2 n h)
      = ∑ e ∈ Finset.univ.filter (fun e : Fin 1600000 => (colR EI (ix2 e (0 : Fin 1))).toInt = (n.val : Int)),
          Cert.ReferenceIdeal.Read.val_main_v15 (F := Ideal) X EI EA W1 B1 (ix2 e h) := by
  have hc : Read.val_main_v17 (F := Ideal) EI = colR EI := rfl
  unfold Read.val_main_v18
  rw [hc]
  generalize Read.val_main_v15 (F := Ideal) X EI EA W1 B1 = u
  generalize colR EI = c
  have hs : ∀ (x : S100000x128.Idx → EReal) (c : IVec S1600000x1 32) (u : S1600000x128.Idx → EReal),
      Host.scatterAdd (F := Ideal) (φ := .f32) scatter_S100000x128_S1600000x1_S1600000x128_1_0_0_1 x c u
        = Ideal.hostScatterAdd (Cert.LibRowScatter.rowAdd 100000 1600000 128
            scatter_S100000x128_S1600000x1_S1600000x128_1_0_0_1_wf) x c u := fun _ _ _ => rfl
  rw [hs, Cert.LibRowScatter.scatterAdd_row_apply, Read.val_main_v16_apply, Read.val_main_cst_apply]
  show Ideal.ofBits .f32 0x00000000#32 + _ = _
  rw [Ideal.ofBits_zero_f32, zero_add]

/-- The hidden row at (e, h): the joined row against column h of the first weight matrix, plus the bias. -/
theorem v15_at (X : S100000x64.Idx → EReal) (EI : IVec S2x1600000 32) (EA : S1600000x32.Idx → EReal)
    (W1 : S96x128.Idx → EReal) (B1 : S128.Idx → EReal) (e : Fin 1600000) (h : Fin 128) :
    Cert.ReferenceIdeal.Read.val_main_v15 (F := Ideal) X EI EA W1 B1 (ix2 e h)
      = Cert.Spec.hiddenR (fun e k => xrR X EI (ix2 e k)) (fun e k => EA (ix2 e k))
          (fun k h => W1 (ix2 k h)) (fun h => B1 (ix1 h)) e h := by
  rw [Read.val_main_v15_apply, v12_at, v14_at, Ideal.addf_def]
  unfold Cert.Spec.hiddenR
  congr 1
  exact Finset.sum_congr rfl fun k _ => by rw [v11_at]

/-- What the nodes collect, as the scatter computes it, is the sum of the hidden rows over the landing edges. -/
theorem agg_eq (X : S100000x64.Idx → EReal) (EI : IVec S2x1600000 32) (EA : S1600000x32.Idx → EReal)
    (W1 : S96x128.Idx → EReal) (B1 : S128.Idx → EReal) :
    (fun (n : Fin 100000) (h : Fin 128) => Cert.ReferenceIdeal.Read.val_main_v18 (F := Ideal) X EI EA W1 B1 (ix2 n h))
      = Cert.Spec.aggR (fun e k => xrR X EI (ix2 e k)) (fun e k => EA (ix2 e k))
          (fun k h => W1 (ix2 k h)) (fun h => B1 (ix1 h))
          (fun (e : Fin 1600000) (n : Fin 100000) => (colR EI (ix2 e (0 : Fin 1))).toInt = (n.val : Int)) := by
  funext n h
  rw [v18_at]
  unfold Cert.Spec.aggR
  exact Finset.sum_congr rfl fun e _ => v15_at X EI EA W1 B1 e h

end RefValue

open RefValue

/-- THE REFERENCE'S RESULT at entry (n, j): collect first, multiply afterwards, over the arguments read entry by entry. -/
theorem ref_value (X : S100000x64.Idx → EReal) (EI : IVec S2x1600000 32) (EA : S1600000x32.Idx → EReal)
    (W1 : S96x128.Idx → EReal) (B1 : S128.Idx → EReal) (W2 : S192x64.Idx → EReal) (B2 : S64.Idx → EReal)
    (n : Fin 100000) (j : Fin 64) :
    Cert.ReferenceIdeal.Read.val_main_v23 (F := Ideal) X EI EA W1 B1 W2 B2 (ix2 n j)
      = Cert.Spec.outR (fun n k => X (ix2 n k)) (fun e k => xrR X EI (ix2 e k)) (fun e k => EA (ix2 e k))
          (fun k h => W1 (ix2 k h)) (fun h => B1 (ix1 h)) (fun k j => W2 (ix2 k j)) (fun j => B2 (ix1 j))
          (fun (e : Fin 1600000) (n : Fin 100000) => (colR EI (ix2 e (0 : Fin 1))).toInt = (n.val : Int)) n j := by
  rw [Read.val_main_v23_apply, v20_at, v22_at, Ideal.addf_def]
  unfold Cert.Spec.outR
  rw [← agg_eq]
  congr 1
  exact Finset.sum_congr rfl fun k _ => by rw [v19_at]

end Cert.ReferenceIdeal.Hand

end
-- ==== Proof.PreFacts.lean ====
/-
  What the precondition says of the arguments.

  The precondition is the conjunction of eight statements "every entry of this array passes a test".  For the seven float
  arrays the test is |x| < +infinity: an extended real whose absolute value max x (-x) is below the top element is
  neither infinity, so it is a real number.  For row 0 of the edge-index array, every edge's source node, the test is
  0 <= r and r < 100000 as signed 32-bit integers.  The node-feature array u and the batch array enter no result and are
  not read here.
-/
import proofs.«428547_j10393820857011_3_alg».proof.Defs
import proofs.«428547_j10393820857011_3_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.PreFacts

open Cert.Pre_finite_inputs Cert.Pre_finite_inputs.Gen

/-- An extended real whose absolute value is below plus infinity is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- The scalar shape has one index. -/
instance : Subsingleton S_.Idx := ⟨fun a b => funext fun d => d.elim0⟩

/-- Row 0 of the edge-index array at edge e is the array's entry (0, e). -/
theorem row0_apply (EI : IVec S2x1600000 32) (e : Fin 1600000) :
    shapeCast S1600000 (extractStridedSlice S1x1600000 ![0, 0] EI slices_S2x1600000_S1x1600000_0_0)
      shapeCasts_S1x1600000_S1600000 (ix1 e) = EI (ix2 (0 : Fin 2) e) := by
  rw [shapeCast_apply _ shapeCasts_S1x1600000_S1600000 (ix1 e) (ix2 (0 : Fin 1) e)
    (by rw [Shape.rowMajor_val_two, Shape.rowMajor_val_one]; show 0 * 1600000 + e.val = e.val; omega)]
  exact extractStridedSlice_apply ![0, 0] EI slices_S2x1600000_S1x1600000_0_0 (ix2 (0 : Fin 1) e) (ix2 (0 : Fin 2) e)
    (fun a => match a with
      | ⟨0, _⟩ => by show (0 : Nat) = 0 + 0; omega
      | ⟨1, _⟩ => by show e.val = 0 + e.val; omega)

/-- THE PRECONDITION READ BACK: the six float arrays that enter the result hold real numbers, and every edge's source
    index is in [0, 100000). -/
theorem facts_of_pre (X : FVec Ideal S100000x64 .f32) (EI : IVec S2x1600000 32) (EA : FVec Ideal S1600000x32 .f32)
    (UU : FVec Ideal S256x64 .f32) (BT : IVec S100000 32) (W1 : FVec Ideal S96x128 .f32) (B1 : FVec Ideal S128 .f32)
    (W2 : FVec Ideal S192x64 .f32) (B2 : FVec Ideal S64 .f32)
    (h : Cert.Pre_finite_inputs.fn (F := Ideal) X EI EA UU BT W1 B1 W2 B2 = fun _ => 1#1) :
    (∀ i, ∃ r : ℝ, X i = (r : EReal)) ∧ (∀ i, ∃ r : ℝ, EA i = (r : EReal)) ∧ (∀ i, ∃ r : ℝ, W1 i = (r : EReal))
      ∧ (∀ i, ∃ r : ℝ, B1 i = (r : EReal)) ∧ (∀ i, ∃ r : ℝ, W2 i = (r : EReal)) ∧ (∀ i, ∃ r : ℝ, B2 i = (r : EReal))
      ∧ (∀ e : Fin 1600000, 0 ≤ (EI (ix2 (0 : Fin 2) e)).toInt ∧ (EI (ix2 (0 : Fin 2) e)).toInt < 100000) := by
  have h0 := congrFun h ix0
  dsimp only [fn, fn_part1, fn_part2] at h0
  obtain ⟨h0, hEI⟩ := IntOp.andi_eq_one.1 h0
  obtain ⟨h0, hB2⟩ := IntOp.andi_eq_one.1 h0
  obtain ⟨h0, hW2⟩ := IntOp.andi_eq_one.1 h0
  obtain ⟨h0, hB1⟩ := IntOp.andi_eq_one.1 h0
  obtain ⟨h0, hW1⟩ := IntOp.andi_eq_one.1 h0
  obtain ⟨h0, hUU⟩ := IntOp.andi_eq_one.1 h0
  obtain ⟨hX, hEA⟩ := IntOp.andi_eq_one.1 h0
  refine ⟨fun i => real_of_abs_lt_inf _ (Host.reduce_andi_all _ _ _ _ ix0 hX i),
    fun i => real_of_abs_lt_inf _ (Host.reduce_andi_all _ _ _ _ ix0 hEA i),
    fun i => real_of_abs_lt_inf _ (Host.reduce_andi_all _ _ _ _ ix0 hW1 i),
    fun i => real_of_abs_lt_inf _ (Host.reduce_andi_all _ _ _ _ ix0 hB1 i),
    fun i => real_of_abs_lt_inf _ (Host.reduce_andi_all _ _ _ _ ix0 hW2 i),
    fun i => real_of_abs_lt_inf _ (Host.reduce_andi_all _ _ _ _ ix0 hB2 i), fun e => ?_⟩
  have he := Host.reduce_andi_all _ _ _ _ ix0 hEI (ix1 e)
  obtain ⟨hge, hlt⟩ := IntOp.andi_eq_one.1 he
  have hge' := IntOp.cmpi_sge.1 hge
  have hlt' := IntOp.cmpi_slt.1 hlt
  rw [row0_apply] at hge' hlt'
  exact ⟨hge', hlt'⟩

end Cert.PreFacts

end
-- ==== Proof.lean ====
/-
  The certificate's claims.

  The kernel program and the reference compute one layer of message passing on a graph: every edge sends
  (the source node's row joined with the edge's row) times a first weight matrix plus a bias to its target node, every
  node sums what arrives, and its own row joined with that sum is multiplied by a second weight matrix, a bias added.
  The reference sums the 128-entry hidden rows and multiplies afterwards; the kernel program multiplies every edge's hidden
  row by the lower block of the second matrix first (its first region), sums the 64-entry products on the host, and adds
  the node's own product and the bias in its second region.  On the extended reals the two agree when the arrays hold
  real numbers, because a finite sum of reals times a real factor is the sum of the products; the precondition's
  finiteness conjuncts give exactly that.  The programs also gather the source rows differently: the kernel program
  replaces a row whose source index is out of range by a fill value, the reference clamps the index; with every source
  index in [0, 100000), the precondition's last conjunct, both are the plain gather.  The target indices are used by
  both programs in the same scatter, so they need no condition.

  The frames of the two kernel programs are the generated frame certificates; the reference has no kernel, and its
  frame is its generated run with the result dropped.  The idealization rewrote no operation, so there is nothing to
  preserve.
-/
import proofs.«428547_j10393820857011_3_alg».proof.Defs
import proofs.«428547_j10393820857011_3_alg».proof.Proof.Gen.Kernel
import proofs.«428547_j10393820857011_3_alg».proof.Proof.Gen.Kernel.Skeleton
import proofs.«428547_j10393820857011_3_alg».proof.Proof.Gen.Kernel.Launch
import proofs.«428547_j10393820857011_3_alg».proof.Proof.Gen.Kernel.Points
import proofs.«428547_j10393820857011_3_alg».proof.Proof.Gen.Kernel.Frame
import proofs.«428547_j10393820857011_3_alg».proof.Proof.Gen.KernelIdeal
import proofs.«428547_j10393820857011_3_alg».proof.Proof.Gen.KernelIdeal.Skeleton
import proofs.«428547_j10393820857011_3_alg».proof.Proof.Gen.KernelIdeal.Launch
import proofs.«428547_j10393820857011_3_alg».proof.Proof.Gen.KernelIdeal.Points
import proofs.«428547_j10393820857011_3_alg».proof.Proof.Gen.KernelIdeal.Frame
import proofs.«428547_j10393820857011_3_alg».proof.Proof.Gen.ReferenceIdeal
import proofs.«428547_j10393820857011_3_alg».proof.Proof.Gen.ReferenceIdeal.Run
import proofs.«428547_j10393820857011_3_alg».proof.Proof.Gen.ReferenceIdeal.Read
import proofs.«428547_j10393820857011_3_alg».proof.Proof.Gen.Pre_finite_inputs
import proofs.«428547_j10393820857011_3_alg».proof.Proof.KernelRun
import proofs.«428547_j10393820857011_3_alg».proof.Proof.KernelValue
import proofs.«428547_j10393820857011_3_alg».proof.Proof.RefValue
import proofs.«428547_j10393820857011_3_alg».proof.Proof.PreFacts
import proofs.«428547_j10393820857011_3_alg».proof.Proof.Spec
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The two programs gather the same rows: their index arrays and dimension numbers are the same operations. -/
theorem gathered_same (X : (⟨2, ![100000, 64]⟩ : Shape).Idx → EReal) (EI : IVec ⟨2, ![2, 1600000]⟩ 32) :
    Cert.ReferenceIdeal.Hand.xrR X EI = Cert.KernelIdeal.Host.xrK X EI := rfl

/-- The two programs scatter by the same target indices. -/
theorem targets_same (EI : IVec ⟨2, ![2, 1600000]⟩ 32) :
    Cert.ReferenceIdeal.Hand.colR EI = Cert.KernelIdeal.Host.colK EI := rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with equal results, entry by entry: the kernel program's result is the specification's
    "multiply first", the reference's is "collect first", and on real arrays the two are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W6 m ρ c (Proc.devRef .tc Cert.KernelIdeal.main_v14),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [e0, e1, e2, e5, e6, e7, e8, Cert.ReferenceIdeal.Read.val_main_v23_eq]
  obtain ⟨hX, hEA, hW1, hB1, hW2, hB2, hrow⟩ := Cert.PreFacts.facts_of_pre _ _ _ _ _ _ _ _ _ (hpre c)
  funext i
  obtain ⟨n, j, rfl⟩ : ∃ (n : Fin 100000) (j : Fin 64), i = ix2 n j := ⟨i 0, i 1, eq_ix2 i⟩
  refine (Cert.ReferenceIdeal.Hand.ref_value _ _ _ _ _ _ _ n j).trans ?_
  refine Eq.trans ?_ (Cert.KernelIdeal.Host.kernel_value m ρ c hrow n j).symm
  rw [gathered_same, targets_same]
  exact (Cert.Spec.outK_eq_outR _ _ _ _ _ _ _ _
    (fun n k => hX (ix2 n k)) (fun e k => hX _) (fun e k => hEA (ix2 e k)) (fun k h => hW1 (ix2 k h))
    (fun h => hB1 (ix1 h)) (fun k j => hW2 (ix2 k j)) (fun j => hB2 (ix1 j)) n j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
